-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x128 : Shape := ⟨3, ![8, 2048, 128]⟩
abbrev S_ : Shape := ⟨0, ![]⟩

class Facts : Prop where
  bcast_S_S8x2048x128 : S_.BroadcastsInDim S8x2048x128 (![] : Fin 0 → Fin S8x2048x128.rank)
  reducesTo_S8x2048x128_S_d0_1_2 : S8x2048x128.ReducesTo [0, 1, 2] S_
  h_S_ : 0 < S_.numel

variable [Facts]

def fn {F : FTy → Type} [FloatOps F] (main_arg0 : FVec F S8x2048x128 .f32) (main_arg1 : FVec F S8x2048x128 .f32) : IVec S_ 1 :=
  let main_v0 : FVec F S8x2048x128 .f32 := Host.absf main_arg0
  let main_cst : FVec F S_ .f32 := constant S_ .f32 0x7F800000#32
  let main_v1 : FVec F S8x2048x128 .f32 := broadcastInDim S8x2048x128 ![] bcast_S_S8x2048x128 main_cst
  let main_v2 : IVec S8x2048x128 1 := cmpf .olt main_v0 main_v1
  let main_c : IVec S_ 1 := constantI S_ 1 1#1
  let main_v3 : IVec S_ 1 := (fun x v => Host.reduce IntOp.andi x v reducesTo_S8x2048x128_S_d0_1_2 h_S_) main_v2 main_c
  let main_v4 : FVec F S8x2048x128 .f32 := Host.absf main_arg1
  let main_cst_0 : FVec F S_ .f32 := constant S_ .f32 0x7F800000#32
  let main_v5 : FVec F S8x2048x128 .f32 := broadcastInDim S8x2048x128 ![] bcast_S_S8x2048x128 main_cst_0
  let main_v6 : IVec S8x2048x128 1 := cmpf .olt main_v4 main_v5
  let main_c_1 : IVec S_ 1 := constantI S_ 1 1#1
  let main_v7 : IVec S_ 1 := (fun x v => Host.reduce IntOp.andi x v reducesTo_S8x2048x128_S_d0_1_2 h_S_) main_v6 main_c_1
  let main_v8 : IVec S_ 1 := andi main_v3 main_v7
  main_v8
-- ==== Kernel.lean ====
abbrev S8x2048x128 : Shape := ⟨3, ![8, 2048, 128]⟩
abbrev S1x2048x128 : Shape := ⟨3, ![1, 2048, 128]⟩
abbrev S2048x128 : Shape := ⟨2, ![2048, 128]⟩
abbrev S2048x1 : Shape := ⟨2, ![2048, 1]⟩
abbrev S512x128 : Shape := ⟨2, ![512, 128]⟩
abbrev S2048x512 : Shape := ⟨2, ![2048, 512]⟩
abbrev S2048 : Shape := ⟨1, ![2048]⟩

abbrev nBuf : Space → Nat
  | .hbm => 3
  | .vmem => 6
  | .smem => 0
  | _ => 0

abbrev bufTy : (tb : Table) → Fin (tcTables nBuf tb) → BufTy
  | .hbm, ⟨0, _⟩ => ⟨S8x2048x128, .f32⟩
  | .hbm, ⟨1, _⟩ => ⟨S8x2048x128, .f32⟩
  | .hbm, ⟨2, _⟩ => ⟨S8x2048x128, .f32⟩
  | .local _ .vmem, ⟨0, _⟩ => ⟨S1x2048x128, .f32⟩
  | .local _ .vmem, ⟨1, _⟩ => ⟨S1x2048x128, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | _, _ => ⟨S8x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32_4 : BitVec 32 := 0#32
  let c4_i32 : BitVec 32 := 4#32
  let v7 : BitVec 32 := Scalar.addi c0_i32_4 c4_i32
  let c1_i32 : BitVec 32 := 1#32
  ⟨c0_i32_4, v7, c1_i32⟩
def k0_mult1 (k0_t1 : Fin k0_t1_loop.trips) : BitVec 32 :=
  let c0_i32_4 : BitVec 32 := 0#32
  let c1_i32 : BitVec 32 := 1#32
  let arg4 : BitVec 32 := Scf.iv c0_i32_4 c1_i32 k0_t1
  let c512_i32 : BitVec 32 := 512#32
  let v14 : BitVec 32 := Scalar.muli arg4 c512_i32
  v14
def k0_off1 (k0_t1 : Fin k0_t1_loop.trips) : Fin 2 → Nat :=
  let c0_i32_4 : BitVec 32 := 0#32
  let c1_i32 : BitVec 32 := 1#32
  let arg4 : BitVec 32 := Scf.iv c0_i32_4 c1_i32 k0_t1
  let c512_i32 : BitVec 32 := 512#32
  let v14 : BitVec 32 := Scalar.muli arg4 c512_i32
  let v15 : BitVec 32 := v14
  let v18 : Index := Scalar.indexCast v15
  let c0_11 : Index := 0#32
  ![v18.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  bitsLt_bf16_f32 : FTy.bits .bf16 < FTy.bits .f32
  squeezes_S1x2048x128_S2048x128 : S1x2048x128.Squeezes S2048x128
  h_S512x128 : 0 < S512x128.numel
  reduces_S2048x512_S2048 : S2048x512.Reduces [1] S2048
  shapeCasts_S2048_S2048x1 : S2048.ShapeCasts S2048x1
  broadcasts_S2048x1_S2048x512 : S2048x1.Broadcasts S2048x512
  broadcasts_S2048x1_S2048x128 : S2048x1.Broadcasts S2048x128
  shapeCasts_S2048x128_S1x2048x128 : S2048x128.ShapeCasts S1x2048x128
  dot_S2048x128_S512x128_S2048x512_1_1_0_0_n_n_wf : DotDims.WF S2048x128 S512x128 S2048x512 [1] [1] [0] [0] [] []
  dot_S2048x512_S512x128_S2048x128_1_0_0_1_n_n_wf : DotDims.WF S2048x512 S512x128 S2048x128 [1] [0] [0] [1] [] []
  hrank0 : 0 < grid0.rank
  k0_t1_ok : k0_t1_loop.OK
  k0_mult1_dvd : ∀ k0_t1 : Fin k0_t1_loop.trips, 512 ∣ (k0_mult1 k0_t1).toNat
  k0_off1_inb : ∀ k0_t1 : Fin k0_t1_loop.trips, ∀ a, (k0_off1 k0_t1) a + S512x128.size a ≤ S2048x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x128.size a ≤ S8x2048x128.size a
  hwx0_0 : ∀ i : grid0.Coords, EltTy.bits .f32 = 32 ∨ (Rect.block (s := S8x2048x128) S1x2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x128.size a ≤ S8x2048x128.size a
  hwx0_1 : ∀ i : grid0.Coords, EltTy.bits .f32 = 32 ∨ (Rect.block (s := S8x2048x128) S1x2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x128.size a ≤ S8x2048x128.size a
  hwx0_2 : ∀ i : grid0.Coords, EltTy.bits .f32 = 32 ∨ (Rect.block (s := S8x2048x128) S1x2048x128.size (cc0_transform_2 i) (hinb0_2 i)).WholeWords (EltTy.packing .f32)

variable [Facts₀]

def dot_S2048x128_S512x128_S2048x512_1_1_0_0_n_n : DotDims S2048x128 S512x128 S2048x512 where
  lhsContracting := [1]
  rhsContracting := [1]
  lhsNonContracting := [0]
  rhsNonContracting := [0]
  lhsBatch := []
  rhsBatch := []
  wf := dot_S2048x128_S512x128_S2048x512_1_1_0_0_n_n_wf
def dot_S2048x512_S512x128_S2048x128_1_0_0_1_n_n : DotDims S2048x512 S512x128 S2048x128 where
  lhsContracting := [1]
  rhsContracting := [0]
  lhsNonContracting := [0]
  rhsNonContracting := [1]
  lhsBatch := []
  rhsBatch := []
  wf := dot_S2048x512_S512x128_S2048x128_1_0_0_1_n_n_wf

abbrev win0_0 : Pipeline.Window sig grid0 :=
  Pipeline.Window.ofSpec (Memref.whole main_arg0) S1x2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x2048x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x2048x128 : Shape := ⟨3, ![8, 2048, 128]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩

abbrev nBuf : Space → Nat
  | .hbm => 19
  | .vmem => 0
  | .smem => 0
  | _ => 0

abbrev bufTy : (tb : Table) → Fin (tcTables nBuf tb) → BufTy
  | .hbm, ⟨0, _⟩ => ⟨S8x2048x128, .f32⟩
  | .hbm, ⟨1, _⟩ => ⟨S8x2048x128, .f32⟩
  | .hbm, ⟨2, _⟩ => ⟨S8x2048x128, .f32⟩
  | .hbm, ⟨3, _⟩ => ⟨S8x2048x2048, .f32⟩
  | .hbm, ⟨4, _⟩ => ⟨S_, .f32⟩
  | .hbm, ⟨5, _⟩ => ⟨S8x2048, .f32⟩
  | .hbm, ⟨6, _⟩ => ⟨S_, .f32⟩
  | .hbm, ⟨7, _⟩ => ⟨S8x2048, .f32⟩
  | .hbm, ⟨8, _⟩ => ⟨S8x2048, .f32⟩
  | .hbm, ⟨9, _⟩ => ⟨S8x2048x1, .f32⟩
  | .hbm, ⟨10, _⟩ => ⟨S8x2048x2048, .f32⟩
  | .hbm, ⟨11, _⟩ => ⟨S8x2048x2048, .f32⟩
  | .hbm, ⟨12, _⟩ => ⟨S8x2048x2048, .f32⟩
  | .hbm, ⟨13, _⟩ => ⟨S_, .f32⟩
  | .hbm, ⟨14, _⟩ => ⟨S8x2048, .f32⟩
  | .hbm, ⟨15, _⟩ => ⟨S8x2048x1, .f32⟩
  | .hbm, ⟨16, _⟩ => ⟨S8x2048x2048, .f32⟩
  | .hbm, ⟨17, _⟩ => ⟨S8x2048x2048, .f32⟩
  | .hbm, ⟨18, _⟩ => ⟨S8x2048x128, .f32⟩
  | _, _ => ⟨S8x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]

class Facts₀ : Prop where
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x128_S8x2048x128_S8x2048x2048_2_2_1_1_0_0_wf : DotDims.WF S8x2048x128 S8x2048x128 S8x2048x2048 [2] [2] [1] [1] [0] [0]
  dot_S8x2048x2048_S8x2048x128_S8x2048x128_2_1_1_2_0_0_wf : DotDims.WF S8x2048x2048 S8x2048x128 S8x2048x128 [2] [1] [1] [2] [0] [0]

variable [Facts₀]

def dot_S8x2048x128_S8x2048x128_S8x2048x2048_2_2_1_1_0_0 : DotDims S8x2048x128 S8x2048x128 S8x2048x2048 where
  lhsContracting := [2]
  rhsContracting := [2]
  lhsNonContracting := [1]
  rhsNonContracting := [1]
  lhsBatch := [0]
  rhsBatch := [0]
  wf := dot_S8x2048x128_S8x2048x128_S8x2048x2048_2_2_1_1_0_0_wf
def dot_S8x2048x2048_S8x2048x128_S8x2048x128_2_1_1_2_0_0 : DotDims S8x2048x2048 S8x2048x128 S8x2048x128 where
  lhsContracting := [2]
  rhsContracting := [1]
  lhsNonContracting := [1]
  rhsNonContracting := [2]
  lhsBatch := [0]
  rhsBatch := [0]
  wf := dot_S8x2048x2048_S8x2048x128_S8x2048x128_2_1_1_2_0_0_wf

class Facts : Prop extends Facts₀ where

variable [Facts]
-- ==== Proof.BodyBits.lean ====
/-
  The attention kernel's body, run once per batch `b` on the staged blocks `x0 = out_state[b]` and
  `x1 = history[b]` (both 2048 × 128): the queries `tanh x0`, then four trips over the key blocks of 512 rows
  of `x1`, each updating a running row maximum, a running denominator and a running numerator (the online form
  of a softmax-weighted sum), and last the quotient numerator / denominator stored as the output block.
  The loop reads the history block and writes nothing, so its invariant is "the history block is held, and the
  carried triple is the fold `carry x0 x1 k` of the trips before `k`"; what the output buffer holds after the
  body is then a pure function `out0_2 x0 x1` of the two input blocks. From that: the pipeline's proof data, the
  body obligation at every grid point, the run of the whole program and the frame (the argument arrays unchanged).
  All of it at any float instance.
-/
import proofs.«413909_j83854941487646_3_alg».proof.Proof.Gen.Kernel.Frame
import proofs.«413909_j83854941487646_3_alg».proof.Proof.Gen.Kernel.Skeleton
import proofs.«413909_j83854941487646_3_alg».proof.Proof.Gen.Kernel.Loops
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The carried triple as a fold over the key blocks -/

/-- The offsets of a whole-block access are zero on every axis. -/
theorem hz : (![0, 0, 0] : Fin 3 → ℕ) = fun _ => 0 := funext fun a => by fin_cases a <;> rfl

/-- The whole-block rectangle of a staged `[1, 2048, 128]` block. -/
abbrev r0 : Rect S1x2048x128 := Rect.unit (s := S1x2048x128) ![0, 0, 0] S1x2048x128.size inb_S1x2048x128_S1x2048x128_0_0_0

/-- What the loop carries: the running row maximum, the running denominator (both one column), the running numerator. -/
abbrev Carry (F : FTy → Type) [FloatOps F] := FVec F S2048x1 .f32 × FVec F S2048x1 .f32 × FVec F S2048x128 .f32

/-- Key block `k` of the history block: its rows `512 k … 512 k + 511`, read through the `[2048, 128]` reshape. -/
def hchunk (x1 : Vec F S1x2048x128 .f32) (k : Fin k0_t1_loop.trips) : Vec F S512x128 .f32 :=
  View.ld (shapeCast S2048x128 x1 shapeCasts_S1x2048x128_S2048x128) (Rect.unit (s := S2048x128) (k0_off1 k) S512x128.size (k0_off1_inb k))

/-- One trip: the new maximum, denominator and numerator from the old ones and key block `k`. -/
def step (x0 x1 : Vec F S1x2048x128 .f32) (k : Fin k0_t1_loop.trips) (a : Carry F) : Carry F :=
  (k0_pay6 x0 a.1 (hchunk x1 k), k0_pay9 x0 a.1 a.2.1 (hchunk x1 k), k0_pay10 x0 a.1 a.2.2 (hchunk x1 k))

/-- The carried triple before trip `k`: from `(-∞, 0, 0)`, one `step` per trip. -/
def carry (x0 x1 : Vec F S1x2048x128 .f32) : ℕ → Carry F
  | 0 => (k0_pay1, k0_pay2, k0_pay3)
  | k + 1 => if h : k < k0_t1_loop.trips then step x0 x1 ⟨k, h⟩ (carry x0 x1 k) else carry x0 x1 k

theorem carry_succ (x0 x1 : Vec F S1x2048x128 .f32) (k : Fin k0_t1_loop.trips) :
    carry x0 x1 (k.val + 1) = step x0 x1 k (carry x0 x1 k.val) := by
  rw [carry, dif_pos k.isLt]

/-- What the output block holds after the body: numerator / denominator after the last trip. -/
def out0_2 (x0 x1 : Vec F S1x2048x128 .f32) : Vec F S1x2048x128 .f32 :=
  k0_pay11 (carry x0 x1 k0_t1_loop.trips).2.1 (carry x0 x1 k0_t1_loop.trips).2.2

omit [FloatOps F] in
/-- A load of key block `k` through the squeezed view of the history buffer reads `hchunk` of the buffer's block. -/
theorem chunk_read (arg2 : Memref sig .tc .vmem S1x2048x128 .f32) (f1 : BufTy.Contents (Elt F) arg2.view.ty) (k : Fin k0_t1_loop.trips) :
    View.readAt (Elt F) ((arg2.slice r0 (fun _ => rfl)).squeeze S2048x128 squeezes_S1x2048x128_S2048x128).view
        (Rect.unit (s := S2048x128) (k0_off1 k) S512x128.size (k0_off1_inb k)).toLoadRect f1
      = hchunk (View.read (Elt F) arg2.view f1) k := by
  unfold hchunk
  show View.ld (shapeCast S2048x128 (View.ld (View.read (Elt F) arg2.view f1) r0) shapeCasts_S1x2048x128_S2048x128) _ = _
  rw [View.ld_unit_zero hz]

/-! ## The body's triple -/

/-- The loop's invariant: the history buffer held at its contents, the carried triple the fold `g` at the trip. -/
def inv (c : Dev nD) (arg2 : Memref sig .tc .vmem S1x2048x128 .f32) (f1 : BufTy.Contents (Elt F) arg2.view.ty)
    (g : ℕ → Carry F) (k : ℕ) (acc : Carry F) : sProp 𝕄 :=
  iprop((View.loc (c : Thread nD τ) arg2.view ↦[arg2.view.set]{fullShare} f1) ∗ ⌜acc = g k⌝)

set_option maxHeartbeats 1000000 in
/-- The kernel body on whole staging memrefs, the inputs' at read contents `x0`, `x1` and the output's at anything,
    runs to the continuation holding the inputs' as they were and the output's at `out0_2 x0 x1`. -/
theorem sound_kernel (c : Dev nD) (E : Set ℕ) (i : grid0.Coords) (arg1 : Memref sig .tc .vmem S1x2048x128 .f32) (harg1 : arg1.IsWhole) (arg2 : Memref sig .tc .vmem S1x2048x128 .f32) (harg2 : arg2.IsWhole) (arg3 : Memref sig .tc .vmem S1x2048x128 .f32) (harg3 : arg3.IsWhole)
    (x0 : Vec F S1x2048x128 .f32) (x1 : Vec F S1x2048x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__attn_kernel i arg1 harg1 arg2 harg2 arg3 harg3) K := by
  simp only [cc0__attn_kernel_eq_skeleton]; unfold cc0__attn_kernel_skel
  unfold owns
  iintro ⟨⟨%f0, %hf0, H0⟩, ⟨%f1, %hf1, H1⟩, ⟨%d2, %f2, -, H2⟩, Hk⟩
  subst hf0 hf1
  sl_exec
  -- the loop: the history buffer goes round, the carried triple is the fold
  sl_for (inv c arg2 f1 (carry (View.read (Elt F) arg1.view f0) (View.read (Elt F) arg2.view f1))) $$ [H1]
  case region =>
    intro k a; unfold inv; iintro ⟨H1, %ha⟩
    sl_exec
    sl_unfold_words
    sl_step
    isplitl [H1]; · iexact H1
    ipureintro
    subst ha
    rw [carry_succ]
    unfold step
    rw [← chunk_read arg2 f1 k, View.readAt_eq_ld, View.ld_unit_zero hz]
    rfl
  · unfold inv
    isplitl [H1]; · iexact H1
    ipureintro; rfl
  iintro %a HI
  unfold inv
  icases HI with ⟨H1, %ha⟩
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (fun y => ⟨_, List.mem_singleton_self _, View.mem_set_unit_zero hz inb_S1x2048x128_S1x2048x128_0_0_0 y⟩),
    View.canon_unit_zero hz, ha]
  rfl

variable (m : (ℓ : Loc nD τ sig) → Buf (Elt F) ℓ) (ρ : Dev nD → PrngReg)

/-! ## The pipeline's proof data -/

/-- The proof data of the one pipeline on core `c`: the arrays as the region finds them; after the body at point
    `t` each input's buffer at its block and the output's at `out0_2` of the input blocks; the scoped rest and the
    generator register untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' memrefs hold their blocks, so `sound_kernel` applies; the invariant and the
    core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates, and every final state has every array of the pipeline at
    what the library computes from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end and leaves both argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Body

end
-- ==== Proof.BodyIdeal.lean ====
/-
  The attention kernel's body, run once per batch `b` on the staged blocks `x0 = out_state[b]` and
  `x1 = history[b]` (both 2048 × 128): the queries `tanh x0`, then four trips over the key blocks of 512 rows
  of `x1`, each updating a running row maximum, a running denominator and a running numerator (the online form
  of a softmax-weighted sum), and last the quotient numerator / denominator stored as the output block.
  The loop reads the history block and writes nothing, so its invariant is "the history block is held, and the
  carried triple is the fold `carry x0 x1 k` of the trips before `k`"; what the output buffer holds after the
  body is then a pure function `out0_2 x0 x1` of the two input blocks. From that: the pipeline's proof data, the
  body obligation at every grid point, the run of the whole program and the frame (the argument arrays unchanged).
  All of it at any float instance.
-/
import proofs.«413909_j83854941487646_3_alg».proof.Proof.Gen.KernelIdeal.Frame
import proofs.«413909_j83854941487646_3_alg».proof.Proof.Gen.KernelIdeal.Skeleton
import proofs.«413909_j83854941487646_3_alg».proof.Proof.Gen.KernelIdeal.Loops
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The carried triple as a fold over the key blocks -/

/-- The offsets of a whole-block access are zero on every axis. -/
theorem hz : (![0, 0, 0] : Fin 3 → ℕ) = fun _ => 0 := funext fun a => by fin_cases a <;> rfl

/-- The whole-block rectangle of a staged `[1, 2048, 128]` block. -/
abbrev r0 : Rect S1x2048x128 := Rect.unit (s := S1x2048x128) ![0, 0, 0] S1x2048x128.size inb_S1x2048x128_S1x2048x128_0_0_0

/-- What the loop carries: the running row maximum, the running denominator (both one column), the running numerator. -/
abbrev Carry (F : FTy → Type) [FloatOps F] := FVec F S2048x1 .f32 × FVec F S2048x1 .f32 × FVec F S2048x128 .f32

/-- Key block `k` of the history block: its rows `512 k … 512 k + 511`, read through the `[2048, 128]` reshape. -/
def hchunk (x1 : Vec F S1x2048x128 .f32) (k : Fin k0_t1_loop.trips) : Vec F S512x128 .f32 :=
  View.ld (shapeCast S2048x128 x1 shapeCasts_S1x2048x128_S2048x128) (Rect.unit (s := S2048x128) (k0_off1 k) S512x128.size (k0_off1_inb k))

/-- One trip: the new maximum, denominator and numerator from the old ones and key block `k`. -/
def step (x0 x1 : Vec F S1x2048x128 .f32) (k : Fin k0_t1_loop.trips) (a : Carry F) : Carry F :=
  (k0_pay6 x0 a.1 (hchunk x1 k), k0_pay9 x0 a.1 a.2.1 (hchunk x1 k), k0_pay10 x0 a.1 a.2.2 (hchunk x1 k))

/-- The carried triple before trip `k`: from `(-∞, 0, 0)`, one `step` per trip. -/
def carry (x0 x1 : Vec F S1x2048x128 .f32) : ℕ → Carry F
  | 0 => (k0_pay1, k0_pay2, k0_pay3)
  | k + 1 => if h : k < k0_t1_loop.trips then step x0 x1 ⟨k, h⟩ (carry x0 x1 k) else carry x0 x1 k

theorem carry_succ (x0 x1 : Vec F S1x2048x128 .f32) (k : Fin k0_t1_loop.trips) :
    carry x0 x1 (k.val + 1) = step x0 x1 k (carry x0 x1 k.val) := by
  rw [carry, dif_pos k.isLt]

/-- What the output block holds after the body: numerator / denominator after the last trip. -/
def out0_2 (x0 x1 : Vec F S1x2048x128 .f32) : Vec F S1x2048x128 .f32 :=
  k0_pay11 (carry x0 x1 k0_t1_loop.trips).2.1 (carry x0 x1 k0_t1_loop.trips).2.2

omit [FloatOps F] in
/-- A load of key block `k` through the squeezed view of the history buffer reads `hchunk` of the buffer's block. -/
theorem chunk_read (arg2 : Memref sig .tc .vmem S1x2048x128 .f32) (f1 : BufTy.Contents (Elt F) arg2.view.ty) (k : Fin k0_t1_loop.trips) :
    View.readAt (Elt F) ((arg2.slice r0 (fun _ => rfl)).squeeze S2048x128 squeezes_S1x2048x128_S2048x128).view
        (Rect.unit (s := S2048x128) (k0_off1 k) S512x128.size (k0_off1_inb k)).toLoadRect f1
      = hchunk (View.read (Elt F) arg2.view f1) k := by
  unfold hchunk
  show View.ld (shapeCast S2048x128 (View.ld (View.read (Elt F) arg2.view f1) r0) shapeCasts_S1x2048x128_S2048x128) _ = _
  rw [View.ld_unit_zero hz]

/-! ## The body's triple -/

/-- The loop's invariant: the history buffer held at its contents, the carried triple the fold `g` at the trip. -/
def inv (c : Dev nD) (arg2 : Memref sig .tc .vmem S1x2048x128 .f32) (f1 : BufTy.Contents (Elt F) arg2.view.ty)
    (g : ℕ → Carry F) (k : ℕ) (acc : Carry F) : sProp 𝕄 :=
  iprop((View.loc (c : Thread nD τ) arg2.view ↦[arg2.view.set]{fullShare} f1) ∗ ⌜acc = g k⌝)

set_option maxHeartbeats 1000000 in
/-- The kernel body on whole staging memrefs, the inputs' at read contents `x0`, `x1` and the output's at anything,
    runs to the continuation holding the inputs' as they were and the output's at `out0_2 x0 x1`. -/
theorem sound_kernel (c : Dev nD) (E : Set ℕ) (i : grid0.Coords) (arg1 : Memref sig .tc .vmem S1x2048x128 .f32) (harg1 : arg1.IsWhole) (arg2 : Memref sig .tc .vmem S1x2048x128 .f32) (harg2 : arg2.IsWhole) (arg3 : Memref sig .tc .vmem S1x2048x128 .f32) (harg3 : arg3.IsWhole)
    (x0 : Vec F S1x2048x128 .f32) (x1 : Vec F S1x2048x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__attn_kernel i arg1 harg1 arg2 harg2 arg3 harg3) K := by
  simp only [cc0__attn_kernel_eq_skeleton]; unfold cc0__attn_kernel_skel
  unfold owns
  iintro ⟨⟨%f0, %hf0, H0⟩, ⟨%f1, %hf1, H1⟩, ⟨%d2, %f2, -, H2⟩, Hk⟩
  subst hf0 hf1
  sl_exec
  -- the loop: the history buffer goes round, the carried triple is the fold
  sl_for (inv c arg2 f1 (carry (View.read (Elt F) arg1.view f0) (View.read (Elt F) arg2.view f1))) $$ [H1]
  case region =>
    intro k a; unfold inv; iintro ⟨H1, %ha⟩
    sl_exec
    sl_unfold_words
    sl_step
    isplitl [H1]; · iexact H1
    ipureintro
    subst ha
    rw [carry_succ]
    unfold step
    rw [← chunk_read arg2 f1 k, View.readAt_eq_ld, View.ld_unit_zero hz]
    rfl
  · unfold inv
    isplitl [H1]; · iexact H1
    ipureintro; rfl
  iintro %a HI
  unfold inv
  icases HI with ⟨H1, %ha⟩
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (fun y => ⟨_, List.mem_singleton_self _, View.mem_set_unit_zero hz inb_S1x2048x128_S1x2048x128_0_0_0 y⟩),
    View.canon_unit_zero hz, ha]
  rfl

variable (m : (ℓ : Loc nD τ sig) → Buf (Elt F) ℓ) (ρ : Dev nD → PrngReg)

/-! ## The pipeline's proof data -/

/-- The proof data of the one pipeline on core `c`: the arrays as the region finds them; after the body at point
    `t` each input's buffer at its block and the output's at `out0_2` of the input blocks; the scoped rest and the
    generator register untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' memrefs hold their blocks, so `sound_kernel` applies; the invariant and the
    core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates, and every final state has every array of the pipeline at
    what the library computes from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end and leaves both argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Body

end
-- ==== Proof.Softmax.lean ====
/-
  The online form of a softmax-weighted sum against its direct form, for ONE query row and ONE output column.

  A row has 2048 scores `S k` and, for the chosen column, 2048 values `V k`. The direct form subtracts the row's
  maximum `M`, exponentiates, normalises by the sum, and takes the weighted sum of the values:
  `∑ k, (exp (S k - M) / ∑ k', exp (S k' - M)) * V k`.
  The online form goes through the keys in four chunks of 512, carrying a running maximum `m`, a running
  denominator `l` and a running numerator `a`: a chunk with maximum `m'' ` moves `m` to `m' = max m m''`, rescales
  `l` and `a` by `exp (m - m')` and adds the chunk's `∑ exp (s i - m')` and `∑ exp (s i - m') * v i`; the result is `a / l`.
  Both are `(∑ k, exp (S k) * V k) / (∑ k, exp (S k))` when every score and value is a real number: a shift of the
  exponent by a real `μ` multiplies numerator and denominator by the same `exp (-μ)`, whatever `μ` is — so the
  running maxima need only be FINITE, never identified. Everything is stated on the extended reals, with the
  conventions `exp ⊥ = 0` and `0 * 0 = 0` carrying the first chunk from the start `(⊥, 0, 0)`.
-/
import Idealize.ShloMosaic.PureOps.Ideal
import Mathlib.Algebra.BigOperators.Fin
import Mathlib.Algebra.Order.BigOperators.Group.Finset
import Mathlib.Data.Fintype.BigOperators
import Mathlib.Logic.Equiv.Fin.Basic

noncomputable section

namespace Cert.Attn

open Idealize.ShloMosaic

/-- Key `512 j + i`: the `i`-th key of chunk `j`. -/
def keyAt (j : Fin 4) (i : Fin 512) : Fin 2048 := ⟨512 * j.val + i.val, by have := j.isLt; have := i.isLt; omega⟩

/-- The maximum of a chunk's scores, folded from `-∞`. -/
def rowMax (s : Fin 512 → EReal) : EReal := (Finset.univ : Finset (Fin 512)).fold max ⊥ s

/-- One chunk's update of `(m, l, a)`: the new maximum, the rescaled denominator plus the chunk's, the rescaled
    numerator plus the chunk's. -/
def upd (s v : Fin 512 → EReal) (st : EReal × EReal × EReal) : EReal × EReal × EReal :=
  (max st.1 (rowMax s),
   Ideal.exp (st.1 - max st.1 (rowMax s)) * st.2.1 + ∑ i : Fin 512, Ideal.exp (s i - max st.1 (rowMax s)),
   Ideal.exp (st.1 - max st.1 (rowMax s)) * st.2.2 + ∑ i : Fin 512, Ideal.exp (s i - max st.1 (rowMax s)) * v i)

/-- `(m, l, a)` before chunk `j`, from `(-∞, 0, 0)`. -/
def online (S V : Fin 2048 → EReal) : ℕ → EReal × EReal × EReal
  | 0 => (⊥, 0, 0)
  | j + 1 => if h : j < 4 then upd (fun i => S (keyAt ⟨j, h⟩ i)) (fun i => V (keyAt ⟨j, h⟩ i)) (online S V j) else online S V j

theorem online_succ (S V : Fin 2048 → EReal) (j : Fin 4) :
    online S V (j.val + 1) = upd (fun i => S (keyAt j i)) (fun i => V (keyAt j i)) (online S V j.val) := by
  rw [online, dif_pos j.isLt]

/-- The online form's result: numerator over denominator after the four chunks. -/
def kerRow (S V : Fin 2048 → EReal) : EReal := Ideal.div (online S V 4).2.2 (online S V 4).2.1

/-- The direct form, as a host program spells it (the maximum joined with `-∞` once more, the sum started from `0`). -/
def refRow (S V : Fin 2048 → EReal) : EReal :=
  ∑ k : Fin 2048, Ideal.div (Ideal.exp (S k - max ⊥ ((Finset.univ : Finset (Fin 2048)).fold max ⊥ S)))
      (0 + ∑ k' : Fin 2048, Ideal.exp (S k' - max ⊥ ((Finset.univ : Finset (Fin 2048)).fold max ⊥ S))) * V k

/-! ### Reals inside the extended reals -/

/-- The coercion of the reals into the extended reals commutes with finite sums. -/
theorem coe_sum {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The coercion is monotone, so it commutes with `max`. -/
theorem coe_max (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

/-- The maximum, folded from `-∞`, of a NONEMPTY finite family of reals is a real (which one is never needed). -/
theorem fold_max_coe {ι : Type} (s : Finset ι) (hs : s.Nonempty) (f : ι → ℝ) :
    ∃ μ : ℝ, s.fold max ⊥ (fun i => (f i : EReal)) = (μ : EReal) := by
  classical
  induction hs using Finset.Nonempty.cons_induction with
  | singleton a => exact ⟨f a, by rw [Finset.fold_singleton, max_bot_right]⟩
  | cons a s ha hs ih =>
    obtain ⟨μ, hμ⟩ := ih
    exact ⟨max (f a) μ, by rw [Finset.fold_cons, hμ, coe_max]⟩

/-- A shift of every exponent by a real `μ` scales the sum of the exponentials by `exp (-μ)`. -/
theorem sum_exp_shift {ι : Type} [Fintype ι] (s : ι → ℝ) (μ : ℝ) :
    ∑ i, Ideal.exp ((s i : EReal) - (μ : EReal)) = ((Real.exp (-μ) * ∑ i, Real.exp (s i) : ℝ) : EReal) := by
  have h : ∀ i, Ideal.exp ((s i : EReal) - (μ : EReal)) = ((Real.exp (-μ) * Real.exp (s i) : ℝ) : EReal) := by
    intro i
    rw [← EReal.coe_sub, Ideal.exp_coe, show s i - μ = -μ + s i by ring, Real.exp_add]
  rw [Finset.sum_congr rfl (fun i _ => h i), coe_sum, Finset.mul_sum]

/-- The same for the weighted sum: `∑ exp (s i - μ) * v i = exp (-μ) * ∑ exp (s i) * v i`. -/
theorem sum_exp_shift_mul {ι : Type} [Fintype ι] (s v : ι → ℝ) (μ : ℝ) :
    ∑ i, Ideal.exp ((s i : EReal) - (μ : EReal)) * (v i : EReal)
      = ((Real.exp (-μ) * ∑ i, Real.exp (s i) * v i : ℝ) : EReal) := by
  have h : ∀ i, Ideal.exp ((s i : EReal) - (μ : EReal)) * (v i : EReal)
      = ((Real.exp (-μ) * (Real.exp (s i) * v i) : ℝ) : EReal) := by
    intro i
    rw [← EReal.coe_sub, Ideal.exp_coe, show s i - μ = -μ + s i by ring, Real.exp_add, ← EReal.coe_mul, mul_assoc]
  rw [Finset.sum_congr rfl (fun i _ => h i), coe_sum, Finset.mul_sum]

/-! ### One chunk of the online form

  The state before a chunk is `(μ, exp (-μ) * d, exp (-μ) * n)` for a real `μ`, where `d` and `n` are the plain sums
  `∑ exp s` and `∑ exp s * v` over the keys already seen; the chunk keeps that shape with some other real `μ'`. -/

/-- The first chunk, from `(-∞, 0, 0)`: `max ⊥ ρ = ρ`, `exp (⊥ - ρ) = exp ⊥ = 0` and `0 * 0 = 0`. -/
theorem upd_bot (s v : Fin 512 → ℝ) :
    ∃ μ : ℝ, upd (fun i => (s i : EReal)) (fun i => (v i : EReal)) (⊥, 0, 0)
      = ((μ : EReal), ((Real.exp (-μ) * ∑ i, Real.exp (s i) : ℝ) : EReal),
          ((Real.exp (-μ) * ∑ i, Real.exp (s i) * v i : ℝ) : EReal)) := by
  obtain ⟨ρ, hρ⟩ := fold_max_coe Finset.univ Finset.univ_nonempty s
  refine ⟨ρ, ?_⟩
  have hm : max (⊥ : EReal) (rowMax fun i => (s i : EReal)) = (ρ : EReal) := by
    rw [rowMax, hρ, max_bot_left]
  simp only [upd]
  rw [hm, EReal.bot_sub, Ideal.exp_bot, zero_mul, zero_add, zero_add, sum_exp_shift, sum_exp_shift_mul]

/-- A later chunk: the old maximum `μ` and the chunk's `ρ` give `μ' = max μ ρ`, and
    `exp (μ - μ') * exp (-μ) = exp (-μ')`. -/
theorem upd_coe (s v : Fin 512 → ℝ) (μ d n : ℝ) :
    ∃ μ' : ℝ, upd (fun i => (s i : EReal)) (fun i => (v i : EReal))
        ((μ : EReal), ((Real.exp (-μ) * d : ℝ) : EReal), ((Real.exp (-μ) * n : ℝ) : EReal))
      = ((μ' : EReal), ((Real.exp (-μ') * (d + ∑ i, Real.exp (s i)) : ℝ) : EReal),
          ((Real.exp (-μ') * (n + ∑ i, Real.exp (s i) * v i) : ℝ) : EReal)) := by
  obtain ⟨ρ, hρ⟩ := fold_max_coe Finset.univ Finset.univ_nonempty s
  refine ⟨max μ ρ, ?_⟩
  have hm : max (μ : EReal) (rowMax fun i => (s i : EReal)) = ((max μ ρ : ℝ) : EReal) := by
    rw [rowMax, hρ, coe_max]
  have he : Real.exp (μ - max μ ρ) * Real.exp (-μ) = Real.exp (-(max μ ρ)) := by
    rw [← Real.exp_add]; congr 1; ring
  simp only [upd]
  rw [hm, ← EReal.coe_sub, Ideal.exp_coe, sum_exp_shift, sum_exp_shift_mul, ← EReal.coe_mul, ← EReal.coe_mul,
    ← EReal.coe_add, ← EReal.coe_add, ← mul_assoc, ← mul_assoc, he, ← mul_add, ← mul_add]

/-! ### The four chunks -/

/-- The four chunks of 512 keys are the 2048 keys: `(j, i) ↦ 512 j + i` is a bijection. -/
theorem sum_chunks (g : Fin 2048 → ℝ) :
    (∑ i, g (keyAt 0 i)) + (∑ i, g (keyAt 1 i)) + (∑ i, g (keyAt 2 i)) + (∑ i, g (keyAt 3 i)) = ∑ k, g k :=
  calc (∑ i, g (keyAt 0 i)) + (∑ i, g (keyAt 1 i)) + (∑ i, g (keyAt 2 i)) + (∑ i, g (keyAt 3 i))
      = ∑ j : Fin 4, ∑ i : Fin 512, g (keyAt j i) := (Fin.sum_univ_four (fun j => ∑ i, g (keyAt j i))).symm
    _ = ∑ p : Fin 4 × Fin 512, g (keyAt p.1 p.2) := (Fintype.sum_prod_type' (fun j i => g (keyAt j i))).symm
    _ = ∑ k, g k :=
      Fintype.sum_equiv (finProdFinEquiv : Fin 4 × Fin 512 ≃ Fin 2048) _ _
        (fun p => congrArg g (Fin.ext (Nat.add_comm _ _)))

/-- After the first chunk the state has the invariant's shape. -/
theorem online_one (S V : Fin 2048 → ℝ) :
    ∃ μ : ℝ, online (fun k => (S k : EReal)) (fun k => (V k : EReal)) 1
      = ((μ : EReal), ((Real.exp (-μ) * ∑ i, Real.exp (S (keyAt 0 i)) : ℝ) : EReal),
          ((Real.exp (-μ) * ∑ i, Real.exp (S (keyAt 0 i)) * V (keyAt 0 i) : ℝ) : EReal)) := by
  have h := online_succ (fun k => (S k : EReal)) (fun k => (V k : EReal)) 0
  obtain ⟨μ, hμ⟩ := upd_bot (fun i => S (keyAt 0 i)) (fun i => V (keyAt 0 i))
  exact ⟨μ, h.trans hμ⟩

/-- A later chunk keeps the invariant's shape and adds the chunk's two plain sums. -/
theorem online_step (S V : Fin 2048 → ℝ) (j : Fin 4) (μ d n : ℝ)
    (h : online (fun k => (S k : EReal)) (fun k => (V k : EReal)) j.val
      = ((μ : EReal), ((Real.exp (-μ) * d : ℝ) : EReal), ((Real.exp (-μ) * n : ℝ) : EReal))) :
    ∃ μ' : ℝ, online (fun k => (S k : EReal)) (fun k => (V k : EReal)) (j.val + 1)
      = ((μ' : EReal), ((Real.exp (-μ') * (d + ∑ i, Real.exp (S (keyAt j i))) : ℝ) : EReal),
          ((Real.exp (-μ') * (n + ∑ i, Real.exp (S (keyAt j i)) * V (keyAt j i)) : ℝ) : EReal)) := by
  rw [online_succ, h]
  exact upd_coe (fun i => S (keyAt j i)) (fun i => V (keyAt j i)) μ d n

/-- After the four chunks: some real `μ`, and `exp (-μ)` times the two plain sums over all 2048 keys. -/
theorem online_four (S V : Fin 2048 → ℝ) :
    ∃ μ : ℝ, online (fun k => (S k : EReal)) (fun k => (V k : EReal)) 4
      = ((μ : EReal), ((Real.exp (-μ) * ∑ k, Real.exp (S k) : ℝ) : EReal),
          ((Real.exp (-μ) * ∑ k, Real.exp (S k) * V k : ℝ) : EReal)) := by
  obtain ⟨μ₁, h₁⟩ := online_one S V
  obtain ⟨μ₂, h₂⟩ := online_step S V 1 μ₁ _ _ h₁
  obtain ⟨μ₃, h₃⟩ := online_step S V 2 μ₂ _ _ h₂
  obtain ⟨μ₄, h₄⟩ := online_step S V 3 μ₃ _ _ h₃
  refine ⟨μ₄, ?_⟩
  rw [sum_chunks (fun k => Real.exp (S k)), sum_chunks (fun k => Real.exp (S k) * V k)] at h₄
  exact h₄

/-- The sum of the exponentials of 2048 reals is positive. -/
theorem den_pos (S : Fin 2048 → ℝ) : 0 < ∑ k, Real.exp (S k) :=
  Finset.sum_pos (fun k _ => Real.exp_pos _) Finset.univ_nonempty

/-- The online form on reals: the factor `exp (-μ)` cancels between numerator and denominator. -/
theorem kerRow_coe (S V : Fin 2048 → ℝ) :
    kerRow (fun k => (S k : EReal)) (fun k => (V k : EReal))
      = (((∑ k, Real.exp (S k) * V k) / (∑ k, Real.exp (S k)) : ℝ) : EReal) := by
  obtain ⟨μ, h⟩ := online_four S V
  have hD := (den_pos S).ne'
  have hE := Real.exp_ne_zero (-μ)
  rw [kerRow, h]
  simp only []
  rw [Ideal.div_coe (mul_ne_zero hE hD), ← EReal.coe_mul, EReal.coe_eq_coe_iff]
  field_simp

/-- The direct form on reals: the maximum `M` is a real, and `exp (-M)` cancels in every term. -/
theorem refRow_coe (S V : Fin 2048 → ℝ) :
    refRow (fun k => (S k : EReal)) (fun k => (V k : EReal))
      = (((∑ k, Real.exp (S k) * V k) / (∑ k, Real.exp (S k)) : ℝ) : EReal) := by
  obtain ⟨M, hM⟩ := fold_max_coe Finset.univ Finset.univ_nonempty S
  have hD := (den_pos S).ne'
  have hE := Real.exp_ne_zero (-M)
  have hterm : ∀ k, Ideal.div (Ideal.exp ((S k : EReal) - (M : EReal)))
        ((Real.exp (-M) * ∑ k', Real.exp (S k') : ℝ) : EReal) * (V k : EReal)
      = ((Real.exp (S k) * V k / (∑ k', Real.exp (S k')) : ℝ) : EReal) := by
    intro k
    rw [Ideal.div_coe (mul_ne_zero hE hD), ← EReal.coe_sub, Ideal.exp_coe, ← EReal.coe_mul, ← EReal.coe_mul,
      show S k - M = -M + S k by ring, Real.exp_add, EReal.coe_eq_coe_iff]
    field_simp
  simp only [refRow]
  rw [hM, max_bot_left, sum_exp_shift, zero_add, Finset.sum_congr rfl (fun k _ => hterm k), coe_sum,
    Finset.sum_div]

/-- A score of finite entries is finite: `∑ h, tanh x_h * y_h` on the extended reals is the real sum. -/
theorem score_coe (x y : Fin 128 → ℝ) :
    ∑ h : Fin 128, Ideal.tanh (x h : EReal) * (y h : EReal) = ((∑ h : Fin 128, Real.tanh (x h) * y h : ℝ) : EReal) :=
  (Finset.sum_congr rfl (fun h _ => by rw [Ideal.tanh_coe, ← EReal.coe_mul])).trans (coe_sum _ _)

/-- On finite scores and values the online form and the direct form agree. -/
theorem kerRow_eq_refRow (S V : Fin 2048 → ℝ) :
    kerRow (fun k => (S k : EReal)) (fun k => (V k : EReal)) = refRow (fun k => (S k : EReal)) (fun k => (V k : EReal)) := by
  rw [kerRow_coe, refRow_coe]

end Cert.Attn

end
-- ==== Proof.LibKeepdims.lean ====
/-
  Layout and reduction lemmas for rank-2 arrays read by coordinates, in the style of the library's
  `Lib/ValueLayout.lean`: the keepdims COLUMN forms (a vector cast to one column, a column broadcast
  along the rows), and a one-axis reduction of an `[a, b]` array — a kernel's `vector.multi_reduction`
  by `add` or `maximumf` over either axis, the host's one-operand `stablehlo.reduce` by `maximum`
  over the second axis — as a `Fin`-indexed sum or fold of the entries `(i, k)` / `(k, j)`.
  Program-independent: only shapes `[a]`, `[a, 1]`, `[a, b]` with the extents as variables.
-/
import Idealize.ShloMosaic.Lib.Pipeline.Value
import Idealize.ShloMosaic.Lib.ValueIdx
import Idealize.ShloMosaic.Lib.ValueLayout
import Idealize.ShloMosaic.PureOps.Ideal.Laws

noncomputable section

namespace Cert.Keepdims

open Idealize.ShloMosaic Idealize.ShloMosaic.ValueIdx

variable {α : Type}

/-- An `[a]` vector cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    omega)

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

variable {φ : FTy}

/-- A float `multi_reduction <add>` of an `[a, b]` array over its second axis, at row `i`: the row's sum. -/
theorem multiReduction_add_rows {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) := by
  refine (Ideal.multiReduction_add_single src acc h hφ hacc (ix1 i)).trans ?_
  show ∑ k : Fin b, src (h.lift (ix1 i) k) = ∑ k : Fin b, src (ix2 i k)
  refine Finset.sum_congr rfl fun k _ => congrArg src (funext fun ax => Fin.ext ?_)
  match ax with
  | ⟨0, _⟩ => rfl
  | ⟨1, _⟩ => rfl

/-- A float `multi_reduction <add>` of an `[a, b]` array over its first axis, at column `j`: the column's sum. -/
theorem multiReduction_add_cols {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (j : Fin b) :
    multiReduction .add [0] ⟨1, ![b]⟩ src acc h hφ hacc (ix1 j) = ∑ k : Fin a, src (ix2 k j) := by
  refine (Ideal.multiReduction_add_single src acc h hφ hacc (ix1 j)).trans ?_
  show ∑ k : Fin a, src (h.lift (ix1 j) k) = ∑ k : Fin a, src (ix2 k j)
  refine Finset.sum_congr rfl fun k _ => congrArg src (funext fun ax => Fin.ext ?_)
  match ax with
  | ⟨0, _⟩ => rfl
  | ⟨1, _⟩ => rfl

/-- A float `multi_reduction <maximumf>` of an `[a, b]` array over its second axis, at row `i`: the fold of
    `max` from the accumulator's value over the row. -/
theorem multiReduction_max_rows {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) := by
  refine (Ideal.multiReduction_maximumf_single src acc h hφ hacc (ix1 i)).trans ?_
  show (Finset.univ : Finset (Fin b)).fold max (Ideal.ofBits φ acc) (fun k => src (h.lift (ix1 i) k)) = _
  refine congrArg (fun f => (Finset.univ : Finset (Fin b)).fold max (Ideal.ofBits φ acc) f)
    (funext fun k => congrArg src (funext fun ax => Fin.ext ?_))
  match ax with
  | ⟨0, _⟩ => rfl
  | ⟨1, _⟩ => rfl

/-- The host's one-operand `stablehlo.reduce` by `maximum` of an `[a, b]` array over its second axis, at row
    `i`, read at the extended reals: the fold of `max` from the initial value over the row. -/
theorem hostReduce_max_rows {a b : ℕ} {u : Shape} (x : (⟨2, ![a, b]⟩ : Shape).Idx → EReal) (init : u.Idx → EReal)
    (h' : (⟨2, ![a, b]⟩ : Shape).ReducesTo [1] ⟨1, ![a]⟩) (h : (⟨2, ![a, b]⟩ : Shape).Reduces [1] ⟨1, ![a]⟩) (hu : 0 < u.numel) (i : Fin a) :
    Host.reduce (FloatOps.maximumf (F := Ideal) (φ := φ)) x init h' hu (ix1 i)
      = (Finset.univ : Finset (Fin b)).fold max (init (Shape.Idx.first hu)) (fun k => x (ix2 i k)) := by
  refine (Host.reduce_eq_fold_single (FloatOps.maximumf (F := Ideal) (φ := φ)) x init h' h hu (ix1 i)).trans ?_
  show (Finset.univ : Finset (Fin b)).fold max (init (Shape.Idx.first hu)) (fun k => x (h.lift (ix1 i) k)) = _
  refine congrArg (fun f => (Finset.univ : Finset (Fin b)).fold max (init (Shape.Idx.first hu)) f)
    (funext fun k => congrArg x (funext fun ax => Fin.ext ?_))
  match ax with
  | ⟨0, _⟩ => rfl
  | ⟨1, _⟩ => rfl

/-! ### The same at `f32` with the accumulator's word written out

At `f32` the neutral word of `add` is `0x00000000` and that of `maximumf` is `0xFF800000` (`-∞`): with the
accumulator written as that word, the evidence that it is the kind's neutral word is the word's equation with itself. -/

theorem add_rows_f32 {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (i : Fin a) :
    multiReduction .add [1] ⟨1, ![a]⟩ src 0x00000000#32 h hφ hacc (ix1 i) = ∑ k : Fin b, src (ix2 i k) :=
  multiReduction_add_rows src _ h hφ hacc i

theorem add_cols_f32 {a b : ℕ} (src : FVec Ideal ⟨2, ![a, b]⟩ .f32) (h : (⟨2, ![a, b]⟩ : Shape).Reduces [0] ⟨1, ![b]⟩)
    (hφ : FKind.Formats .f32) (hacc : (0x00000000#32 : BitVec 32) = 0x00000000#32) (j : Fin b) :
    multiReduction .add [0] ⟨1, ![b]⟩ src 0x00000000#32 h hφ hacc (ix1 j) = ∑ k : Fin a, src (ix2 k j) :=
  multiReduction_add_cols src _ h hφ hacc j

theorem max_rows_f32 {a b : ℕ} (src : FVec Ideal ⟨2, ![a, b]⟩ .f32) (h : (⟨2, ![a, b]⟩ : Shape).Reduces [1] ⟨1, ![a]⟩)
    (hφ : FKind.Formats .f32) (hacc : (0xFF800000#32 : BitVec 32) = 0xFF800000#32) (i : Fin a) :
    multiReduction .maximumf [1] ⟨1, ![a]⟩ src 0xFF800000#32 h hφ hacc (ix1 i)
      = (Finset.univ : Finset (Fin b)).fold max (Ideal.ofBits .f32 0xFF800000#32) (fun k => src (ix2 i k)) :=
  multiReduction_max_rows src _ h hφ hacc i

/-- The one entry of a `[1, 1]` array, extracted at `[0, 0]`. -/
theorem extractAt_11 (x : (⟨2, ![1, 1]⟩ : Shape).Idx → α) (h : ∀ a, (![0, 0] : Fin 2 → ℕ) a < (⟨2, ![1, 1]⟩ : Shape).size a) :
    extractAt ![0, 0] x h = x (ix2 (0 : Fin 1) (0 : Fin 1)) := by
  unfold extractAt
  refine congrArg x (funext fun ax => Fin.ext ?_)
  match ax with
  | ⟨0, _⟩ => rfl
  | ⟨1, _⟩ => rfl

end Cert.Keepdims

end
-- ==== Proof.KernelRow.lean ====
/-
  The attention body's arithmetic read at an index, over the extended reals. For one query row `r` and one output
  column `c` of a batch, a trip over key block `k` (keys `512 k + i`) takes the running maximum `m`, denominator
  `l` and numerator `a` to `Cert.Attn.upd s v (m, l, a)`, where `s i = ∑ h, tanh x0[r,h] * x1[512 k + i, h]` is the
  row's score against key `i` of the block and `v i = x1[512 k + i, c]` the key's value in the column; so after the four
  trips the carried triple is `Cert.Attn.online` of the row's 2048 scores and the column's 2048 values, and the stored
  quotient is `Cert.Attn.kerRow` of them.
-/
import proofs.«413909_j83854941487646_3_alg».proof.Proof.BodyIdeal
import proofs.«413909_j83854941487646_3_alg».proof.Proof.Softmax
import proofs.«413909_j83854941487646_3_alg».proof.Proof.LibKeepdims
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Row

open Cert.KernelIdeal Cert.KernelIdeal.Gen Cert.KernelIdeal.Body
open Idealize.ShloMosaic Idealize.ShloMosaic.ValueIdx Cert.Keepdims

/-! ## Literals -/

theorem ofBits_ninf : Ideal.ofBits .f32 0xFF800000#32 = ⊥ := by simp [Ideal.ofBits, Ideal.ieee]

/-- The loop runs four trips. -/
theorem trips_eq : k0_t1_loop.trips = 4 := by decide

/-! ## The blocks read by coordinates -/

/-- The `[1, 2048, 128]` block seen as `[2048, 128]`: entry `(r, h)` is the block's `(0, r, h)`. -/
theorem cast_block_apply (x : Vec Ideal S1x2048x128 .f32) (r : Fin 2048) (h : Fin 128) :
    shapeCast S2048x128 x shapeCasts_S1x2048x128_S2048x128 (ix2 r h) = x (ix3 (0 : Fin 1) r h) :=
  shapeCast_apply x shapeCasts_S1x2048x128_S2048x128 (ix2 r h) (ix3 (0 : Fin 1) r h) (by
    rw [Shape.rowMajor_val_three, Shape.rowMajor_val_two]
    show ((0 : ℕ) * 2048 + r.val) * 128 + h.val = r.val * 128 + h.val
    omega)

/-- Key `512 k + i` as an index of the history block's rows. -/
def keyRow (k : Fin k0_t1_loop.trips) (i : Fin 512) : Fin 2048 :=
  ⟨512 * k.val + i.val, by have hk : k.val < 4 := trips_eq ▸ k.isLt; have := i.isLt; omega⟩

/-- Key block `k` at `(i, h)` is the history block at `(0, 512 k + i, h)`. -/
theorem hchunk_apply (x1 : Vec Ideal S1x2048x128 .f32) (k : Fin k0_t1_loop.trips) (i : Fin 512) (h : Fin 128) :
    hchunk x1 k (ix2 i h) = x1 (ix3 (0 : Fin 1) (keyRow k i) h) := by
  unfold hchunk
  show shapeCast S2048x128 x1 shapeCasts_S1x2048x128_S2048x128
      ((Rect.unit (s := S2048x128) (k0_off1 k) S512x128.size (k0_off1_inb k)).idx (ix2 i h)) = _
  have e : (Rect.unit (s := S2048x128) (k0_off1 k) S512x128.size (k0_off1_inb k)).idx (ix2 i h) = ix2 (keyRow k i) h := by
    funext a; apply Fin.ext
    match a with
    | ⟨0, _⟩ =>
      show k0_off1 k 0 + 1 * i.val = 512 * k.val + i.val
      rw [k0_off1_eq k]; show 512 * k.val + 1 * i.val = _; omega
    | ⟨1, _⟩ =>
      show k0_off1 k 1 + 1 * h.val = h.val
      rw [k0_off1_eq k]; show 0 + 1 * h.val = _; omega
  rw [e, cast_block_apply]

/-! ## The scores: the first matrix product, queries against a key block -/

theorem lhs1_0 (j : S2048x512.Idx) (q : dot_S2048x128_S512x128_S2048x512_1_1_0_0_n_n.contr.Idx) :
    (dot_S2048x128_S512x128_S2048x512_1_1_0_0_n_n.lhsIdx j q 0).val = (j 0).val := by
  unfold DotDims.lhsIdx
  rw [dif_neg (show ¬(0 : Fin S2048x128.rank) ∈ dot_S2048x128_S512x128_S2048x512_1_1_0_0_n_n.lhsBatch by decide), dif_pos (show (0 : Fin S2048x128.rank) ∈ dot_S2048x128_S512x128_S2048x512_1_1_0_0_n_n.lhsNonContracting by decide)]
  rfl
theorem lhs1_1 (j : S2048x512.Idx) (q : dot_S2048x128_S512x128_S2048x512_1_1_0_0_n_n.contr.Idx) :
    (dot_S2048x128_S512x128_S2048x512_1_1_0_0_n_n.lhsIdx j q 1).val = (q ⟨0, by decide⟩).val :=
  dot_S2048x128_S512x128_S2048x512_1_1_0_0_n_n.lhsIdx_val_of_single rfl j q
theorem rhs1_0 (j : S2048x512.Idx) (q : dot_S2048x128_S512x128_S2048x512_1_1_0_0_n_n.contr.Idx) :
    (dot_S2048x128_S512x128_S2048x512_1_1_0_0_n_n.rhsIdx j q 0).val = (j 1).val := by
  unfold DotDims.rhsIdx
  rw [dif_neg (show ¬(0 : Fin S512x128.rank) ∈ dot_S2048x128_S512x128_S2048x512_1_1_0_0_n_n.rhsBatch by decide), dif_pos (show (0 : Fin S512x128.rank) ∈ dot_S2048x128_S512x128_S2048x512_1_1_0_0_n_n.rhsNonContracting by decide)]
  rfl
theorem rhs1_1 (j : S2048x512.Idx) (q : dot_S2048x128_S512x128_S2048x512_1_1_0_0_n_n.contr.Idx) :
    (dot_S2048x128_S512x128_S2048x512_1_1_0_0_n_n.rhsIdx j q 1).val = (q ⟨0, by decide⟩).val :=
  dot_S2048x128_S512x128_S2048x512_1_1_0_0_n_n.rhsIdx_val_of_single rfl j q

/-- Row `r`'s score against key `i` of a key block: the sum over the 128 features of `tanh` of the query entry times the
    key entry (the roundings to bf16 on the way into the product are the identity here). -/
theorem scores_apply (x0 : Vec Ideal S1x2048x128 .f32) (ch : Vec Ideal S512x128 .f32) (r : Fin 2048) (i : Fin 512) :
    k0_pay5 x0 ch (ix2 r i) = ∑ h : Fin 128, Ideal.tanh (x0 (ix3 (0 : Fin 1) r h)) * ch (ix2 i h) := by
  unfold k0_pay5 k0_pay4
  refine (Ideal.matmul_constant_zero_apply dot_S2048x128_S512x128_S2048x512_1_1_0_0_n_n none _ _ (ix2 r i)).trans ?_
  rw [← Equiv.sum_comp (contrEquiv1 dot_S2048x128_S512x128_S2048x512_1_1_0_0_n_n 128 rfl rfl).symm]
  refine Finset.sum_congr rfl fun h _ => ?_
  have hk := contrEquiv1_symm_val dot_S2048x128_S512x128_S2048x512_1_1_0_0_n_n 128 rfl rfl h
  have el : dot_S2048x128_S512x128_S2048x512_1_1_0_0_n_n.lhsIdx (ix2 r i) ((contrEquiv1 dot_S2048x128_S512x128_S2048x512_1_1_0_0_n_n 128 rfl rfl).symm h) = ix2 r h := funext fun a => Fin.ext (by
    match a with
    | ⟨0, _⟩ => exact lhs1_0 _ _
    | ⟨1, _⟩ => exact (lhs1_1 _ _).trans hk)
  have er : dot_S2048x128_S512x128_S2048x512_1_1_0_0_n_n.rhsIdx (ix2 r i) ((contrEquiv1 dot_S2048x128_S512x128_S2048x512_1_1_0_0_n_n 128 rfl rfl).symm h) = ix2 i h := funext fun a => Fin.ext (by
    match a with
    | ⟨0, _⟩ => exact rhs1_0 _ _
    | ⟨1, _⟩ => exact (rhs1_1 _ _).trans hk)
  rw [el, er]
  show Ideal.tanh (shapeCast S2048x128 x0 shapeCasts_S1x2048x128_S2048x128 (ix2 r h)) * ch (ix2 i h) = _
  rw [cast_block_apply]

/-! ## The weighted values: the second matrix product, weights against the key block -/

theorem lhs2_0 (j : S2048x128.Idx) (q : dot_S2048x512_S512x128_S2048x128_1_0_0_1_n_n.contr.Idx) :
    (dot_S2048x512_S512x128_S2048x128_1_0_0_1_n_n.lhsIdx j q 0).val = (j 0).val := by
  unfold DotDims.lhsIdx
  rw [dif_neg (show ¬(0 : Fin S2048x512.rank) ∈ dot_S2048x512_S512x128_S2048x128_1_0_0_1_n_n.lhsBatch by decide), dif_pos (show (0 : Fin S2048x512.rank) ∈ dot_S2048x512_S512x128_S2048x128_1_0_0_1_n_n.lhsNonContracting by decide)]
  rfl
theorem lhs2_1 (j : S2048x128.Idx) (q : dot_S2048x512_S512x128_S2048x128_1_0_0_1_n_n.contr.Idx) :
    (dot_S2048x512_S512x128_S2048x128_1_0_0_1_n_n.lhsIdx j q 1).val = (q ⟨0, by decide⟩).val :=
  dot_S2048x512_S512x128_S2048x128_1_0_0_1_n_n.lhsIdx_val_of_single rfl j q
theorem rhs2_0 (j : S2048x128.Idx) (q : dot_S2048x512_S512x128_S2048x128_1_0_0_1_n_n.contr.Idx) :
    (dot_S2048x512_S512x128_S2048x128_1_0_0_1_n_n.rhsIdx j q 0).val = (q ⟨0, by decide⟩).val :=
  dot_S2048x512_S512x128_S2048x128_1_0_0_1_n_n.rhsIdx_val_of_single rfl j q
theorem rhs2_1 (j : S2048x128.Idx) (q : dot_S2048x512_S512x128_S2048x128_1_0_0_1_n_n.contr.Idx) :
    (dot_S2048x512_S512x128_S2048x128_1_0_0_1_n_n.rhsIdx j q 1).val = (j 1).val := by
  unfold DotDims.rhsIdx
  rw [dif_neg (show ¬(1 : Fin S512x128.rank) ∈ dot_S2048x512_S512x128_S2048x128_1_0_0_1_n_n.rhsBatch by decide), dif_pos (show (1 : Fin S512x128.rank) ∈ dot_S2048x512_S512x128_S2048x128_1_0_0_1_n_n.rhsNonContracting by decide)]
  rfl

/-- Weights `p` (one row per query, one column per key of the block) against the key block, at `(r, c)`: the sum over
    the block's keys of the weight times the key's entry in column `c`. -/
theorem pv_apply (p : FVec Ideal S2048x512 .f32) (ch : Vec Ideal S512x128 .f32) (r : Fin 2048) (c : Fin 128) :
    matmul dot_S2048x512_S512x128_S2048x128_1_0_0_1_n_n none (truncf .bf16 p bitsLt_bf16_f32) (k0_pay4 ch)
        (constant (F := Ideal) S2048x128 .f32 0x00000000#32) (ix2 r c)
      = ∑ i : Fin 512, p (ix2 r i) * ch (ix2 i c) := by
  unfold k0_pay4
  refine (Ideal.matmul_constant_zero_apply dot_S2048x512_S512x128_S2048x128_1_0_0_1_n_n none _ _ (ix2 r c)).trans ?_
  rw [← Equiv.sum_comp (contrEquiv1 dot_S2048x512_S512x128_S2048x128_1_0_0_1_n_n 512 rfl rfl).symm]
  refine Finset.sum_congr rfl fun i _ => ?_
  have hk := contrEquiv1_symm_val dot_S2048x512_S512x128_S2048x128_1_0_0_1_n_n 512 rfl rfl i
  have el : dot_S2048x512_S512x128_S2048x128_1_0_0_1_n_n.lhsIdx (ix2 r c) ((contrEquiv1 dot_S2048x512_S512x128_S2048x128_1_0_0_1_n_n 512 rfl rfl).symm i) = ix2 r i := funext fun a => Fin.ext (by
    match a with
    | ⟨0, _⟩ => exact lhs2_0 _ _
    | ⟨1, _⟩ => exact (lhs2_1 _ _).trans hk)
  have er : dot_S2048x512_S512x128_S2048x128_1_0_0_1_n_n.rhsIdx (ix2 r c) ((contrEquiv1 dot_S2048x512_S512x128_S2048x128_1_0_0_1_n_n 512 rfl rfl).symm i) = ix2 i c := funext fun a => Fin.ext (by
    match a with
    | ⟨0, _⟩ => exact (rhs2_0 _ _).trans hk
    | ⟨1, _⟩ => exact rhs2_1 _ _)
  rw [el, er]
  rfl

/-! ## One trip's payloads read at a row and a column -/

section Trip
variable (x0 : Vec Ideal S1x2048x128 .f32)

/-- The new running maximum of row `r`: the old one joined with the maximum of the row's scores against the block. -/
theorem pay6_apply (a5 : FVec Ideal S2048x1 .f32) (ch : Vec Ideal S512x128 .f32) (r : Fin 2048) :
    k0_pay6 x0 a5 ch (ix2 r (0 : Fin 1))
      = max (a5 (ix2 r (0 : Fin 1))) ((Finset.univ : Finset (Fin 512)).fold max ⊥ (fun i => k0_pay5 x0 ch (ix2 r i))) := by
  unfold k0_pay6
  refine (ValueIdx.maximumf_apply _ _ _).trans ?_
  refine congrArg (max (a5 (ix2 r (0 : Fin 1)))) ?_
  refine (shapeCast_a_a1_apply _ shapeCasts_S2048_S2048x1 r (0 : Fin 1)).trans ?_
  refine (multiReduction_max_rows _ _ reduces_S2048x512_S2048 _ _ r).trans ?_
  rw [ofBits_ninf]

/-- The weight of key `i` in row `r`: the exponential of the score less the new maximum. -/
theorem pay7_apply (a5 : FVec Ideal S2048x1 .f32) (ch : Vec Ideal S512x128 .f32) (r : Fin 2048) (i : Fin 512) :
    k0_pay7 x0 a5 ch (ix2 r i) = Ideal.exp (k0_pay5 x0 ch (ix2 r i) - k0_pay6 x0 a5 ch (ix2 r (0 : Fin 1))) := by
  unfold k0_pay7
  show Ideal.exp (k0_pay5 x0 ch (ix2 r i) - broadcastTo S2048x512 (k0_pay6 x0 a5 ch) broadcasts_S2048x1_S2048x512 (ix2 r i)) = _
  rw [broadcastTo_a1_ab_apply]

/-- The rescaling factor of row `r`: the exponential of the old maximum less the new. -/
theorem pay8_apply (a5 : FVec Ideal S2048x1 .f32) (ch : Vec Ideal S512x128 .f32) (r : Fin 2048) :
    k0_pay8 x0 a5 ch (ix2 r (0 : Fin 1)) = Ideal.exp (a5 (ix2 r (0 : Fin 1)) - k0_pay6 x0 a5 ch (ix2 r (0 : Fin 1))) := rfl

/-- The new denominator of row `r`: the old one rescaled plus the block's weights summed. -/
theorem pay9_apply (a5 a6 : FVec Ideal S2048x1 .f32) (ch : Vec Ideal S512x128 .f32) (r : Fin 2048) :
    k0_pay9 x0 a5 a6 ch (ix2 r (0 : Fin 1))
      = k0_pay8 x0 a5 ch (ix2 r (0 : Fin 1)) * a6 (ix2 r (0 : Fin 1)) + ∑ i : Fin 512, k0_pay7 x0 a5 ch (ix2 r i) := by
  unfold k0_pay9
  show k0_pay8 x0 a5 ch (ix2 r (0 : Fin 1)) * a6 (ix2 r (0 : Fin 1)) + shapeCast S2048x1 (multiReduction .add [1] S2048 (k0_pay7 x0 a5 ch) 0x00000000#32 reduces_S2048x512_S2048 (.inl rfl) rfl) shapeCasts_S2048_S2048x1 (ix2 r (0 : Fin 1)) = _
  rw [shapeCast_a_a1_apply, add_rows_f32]

/-- The new numerator at `(r, c)`: the old one rescaled plus the block's weighted values. -/
theorem pay10_apply (a5 : FVec Ideal S2048x1 .f32) (a7 : FVec Ideal S2048x128 .f32) (ch : Vec Ideal S512x128 .f32) (r : Fin 2048) (c : Fin 128) :
    k0_pay10 x0 a5 a7 ch (ix2 r c)
      = k0_pay8 x0 a5 ch (ix2 r (0 : Fin 1)) * a7 (ix2 r c) + ∑ i : Fin 512, k0_pay7 x0 a5 ch (ix2 r i) * ch (ix2 i c) := by
  unfold k0_pay10
  show broadcastTo S2048x128 (k0_pay8 x0 a5 ch) broadcasts_S2048x1_S2048x128 (ix2 r c) * a7 (ix2 r c)
      + matmul dot_S2048x512_S512x128_S2048x128_1_0_0_1_n_n none (truncf .bf16 (k0_pay7 x0 a5 ch) bitsLt_bf16_f32) (k0_pay4 ch)
          (constant (F := Ideal) S2048x128 .f32 0x00000000#32) (ix2 r c) = _
  rw [broadcastTo_a1_ab_apply, pv_apply]

end Trip

/-- The stored quotient at `(0, r, c)`: the numerator at `(r, c)` over row `r`'s denominator. -/
theorem pay11_apply (l : FVec Ideal S2048x1 .f32) (acc : FVec Ideal S2048x128 .f32) (r : Fin 2048) (c : Fin 128) :
    k0_pay11 l acc (ix3 (0 : Fin 1) r c) = Ideal.div (acc (ix2 r c)) (l (ix2 r (0 : Fin 1))) := by
  unfold k0_pay11
  refine (shapeCast_apply _ shapeCasts_S2048x128_S1x2048x128 (ix3 (0 : Fin 1) r c) (ix2 r c) (by
    rw [Shape.rowMajor_val_three, Shape.rowMajor_val_two]
    show r.val * 128 + c.val = ((0 : ℕ) * 2048 + r.val) * 128 + c.val
    omega)).trans ?_
  show Ideal.div (acc (ix2 r c)) (broadcastTo S2048x128 l broadcasts_S2048x1_S2048x128 (ix2 r c)) = _
  rw [broadcastTo_a1_ab_apply]

/-! ## The carried triple at a row and a column is the online recurrence -/

section Fold
variable (x0 x1 : Vec Ideal S1x2048x128 .f32)

/-- Row `r`'s score against key `k` of the batch. -/
def rowScores (r : Fin 2048) : Fin 2048 → EReal :=
  fun k => ∑ h : Fin 128, Ideal.tanh (x0 (ix3 (0 : Fin 1) r h)) * x1 (ix3 (0 : Fin 1) k h)

/-- Column `c` of the batch's history: key `k`'s value. -/
def colValues (c : Fin 128) : Fin 2048 → EReal := fun k => x1 (ix3 (0 : Fin 1) k c)

/-- The carried triple read at row `r` and column `c`. -/
def atRC (a : Carry Ideal) (r : Fin 2048) (c : Fin 128) : EReal × EReal × EReal :=
  (a.1 (ix2 r (0 : Fin 1)), a.2.1 (ix2 r (0 : Fin 1)), a.2.2 (ix2 r c))

theorem scores_chunk (k : Fin k0_t1_loop.trips) (r : Fin 2048) (i : Fin 512) :
    k0_pay5 x0 (hchunk x1 k) (ix2 r i) = rowScores x0 x1 r (keyRow k i) := by
  rw [scores_apply]
  unfold rowScores
  exact Finset.sum_congr rfl fun h _ => by rw [hchunk_apply]

/-- One trip, read at a row and a column, is one update of the online recurrence by the block's scores and values. -/
theorem step_at (k : Fin k0_t1_loop.trips) (a : Carry Ideal) (r : Fin 2048) (c : Fin 128) :
    atRC (step x0 x1 k a) r c
      = Cert.Attn.upd (fun i => rowScores x0 x1 r (keyRow k i)) (fun i => colValues x1 c (keyRow k i)) (atRC a r c) := by
  unfold step atRC Cert.Attn.upd Cert.Attn.rowMax colValues
  refine Prod.ext ?_ (Prod.ext ?_ ?_)
  · show k0_pay6 x0 a.1 (hchunk x1 k) (ix2 r (0 : Fin 1)) = _
    rw [pay6_apply]
    simp only [scores_chunk]
  · show k0_pay9 x0 a.1 a.2.1 (hchunk x1 k) (ix2 r (0 : Fin 1)) = _
    rw [pay9_apply, pay8_apply]
    simp only [pay7_apply, pay6_apply, scores_chunk]
  · show k0_pay10 x0 a.1 a.2.2 (hchunk x1 k) (ix2 r c) = _
    rw [pay10_apply, pay8_apply]
    simp only [pay7_apply, pay6_apply, scores_chunk, hchunk_apply]

/-- Before trip `j` the carried triple at `(r, c)` is the online recurrence of the row's scores and the column's values. -/
theorem carry_online (r : Fin 2048) (c : Fin 128) :
    ∀ j : ℕ, j ≤ 4 → atRC (carry x0 x1 j) r c = Cert.Attn.online (rowScores x0 x1 r) (colValues x1 c) j
  | 0, _ => by
    unfold carry atRC Cert.Attn.online
    show ((k0_pay1 (F := Ideal)) (ix2 r (0 : Fin 1)), (k0_pay2 (F := Ideal)) (ix2 r (0 : Fin 1)), (k0_pay3 (F := Ideal)) (ix2 r c)) = _
    refine Prod.ext ?_ (Prod.ext ?_ ?_)
    · show Ideal.ofBits .f32 0xFF800000#32 = ⊥
      exact ofBits_ninf
    · show Ideal.ofBits .f32 0x00000000#32 = 0
      exact Ideal.ofBits_zero_f32
    · show Ideal.ofBits .f32 0x00000000#32 = 0
      exact Ideal.ofBits_zero_f32
  | j + 1, hj => by
    have hj4 : j < 4 := by omega
    have hjt : j < k0_t1_loop.trips := by rw [trips_eq]; exact hj4
    have e1 := carry_succ x0 x1 ⟨j, hjt⟩
    have e2 := Cert.Attn.online_succ (rowScores x0 x1 r) (colValues x1 c) ⟨j, hj4⟩
    show atRC (carry x0 x1 ((⟨j, hjt⟩ : Fin k0_t1_loop.trips).val + 1)) r c = Cert.Attn.online _ _ ((⟨j, hj4⟩ : Fin 4).val + 1)
    rw [e1, e2, step_at, carry_online r c j (by omega)]
    rfl

/-- The output block at `(0, r, c)`: the online softmax-weighted sum of row `r`'s scores against column `c`'s values. -/
theorem out_apply (r : Fin 2048) (c : Fin 128) :
    out0_2 x0 x1 (ix3 (0 : Fin 1) r c) = Cert.Attn.kerRow (rowScores x0 x1 r) (colValues x1 c) := by
  unfold out0_2 Cert.Attn.kerRow
  rw [pay11_apply, trips_eq]
  have h := carry_online x0 x1 r c 4 le_rfl
  rw [← h]
  rfl

end Fold

end Cert.KernelIdeal.Row

end
-- ==== Proof.KernelValue.lean ====
/-
  From the output blocks to the output array. Grid point `t` is batch `t`: all three windows' blocks at `t` are the
  `[1, 2048, 128]` slab `t` of their `[8, 2048, 128]` arrays. What point `t` writes back — `out0_2` of the two input
  slabs — is therefore slab `t` of ONE whole-array function `G` of the two argument arrays: at `(b, q, c)` the online
  softmax-weighted sum of row `(b, q)`'s scores against column `c` of batch `b`'s history. The eight slabs cover the
  array, so after the run the output array is `G` of the arguments.
-/
import proofs.«413909_j83854941487646_3_alg».proof.Proof.BodyIdeal
import proofs.«413909_j83854941487646_3_alg».proof.Proof.KernelRow
import proofs.«413909_j83854941487646_3_alg».proof.Proof.Softmax
import Idealize.ShloMosaic.Lib.Pipeline.Value
import Idealize.ShloMosaic.Lib.ValueIdx

set_option maxRecDepth 16384

noncomputable section

namespace Cert.KernelIdeal.KValue

open Cert.KernelIdeal Cert.KernelIdeal.Gen Cert.KernelIdeal.Body Cert.KernelIdeal.Row
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The whole-array function -/

/-- The output at batch `b`, query `q`, column `c`, from the two argument arrays. -/
def Gat (a0 a1 : S8x2048x128.Idx → EReal) (b : Fin 8) (q : Fin 2048) (c : Fin 128) : EReal :=
  Cert.Attn.kerRow (fun k => ∑ h : Fin 128, Ideal.tanh (a0 (ix3 b q h)) * a1 (ix3 b k h)) (fun k => a1 (ix3 b k c))

/-- The output array as one function of the argument arrays. -/
def G (a0 a1 : S8x2048x128.Idx → EReal) : S8x2048x128.Idx → EReal := fun i => Gat a0 a1 (i 0) (i 1) (i 2)

theorem G_apply (a0 a1 : S8x2048x128.Idx → EReal) (b : Fin 8) (q : Fin 2048) (c : Fin 128) :
    G a0 a1 (ix3 b q c) = Gat a0 a1 b q c := rfl

/-! ## The blocks are the batch slabs -/

/-- Every window's block index at point `t` is `(t, 0, 0)`. -/
theorem idx_facts : ∀ t : Fin cfg0.N, win0_0.index t = ![t.val, 0, 0] ∧ win0_1.index t = ![t.val, 0, 0] ∧ win0_2.index t = ![t.val, 0, 0] :=
  (by decide +kernel : ∀ t : Fin grid0.N, win0_0.index t = ![t.val, 0, 0] ∧ win0_1.index t = ![t.val, 0, 0] ∧ win0_2.index t = ![t.val, 0, 0])

/-- Point `t` as a batch. -/
def batchOf (t : Fin cfg0.N) : Fin 8 := ⟨t.val, lt_of_lt_of_eq t.isLt N_0⟩

/-- The query slab of point `t` at `(0, a, b)` is the first argument at `(t, a, b)`. -/
theorem iblk0_apply (c : Dev nD) (t : Fin cfg0.N) (a : Fin 2048) (b : Fin 128) :
    iblk m c 0 t (ix3 (0 : Fin 1) a b) = V m c main_arg0 (ix3 (batchOf t) a b) := by
  show V m c main_arg0 (((cfg0.win 0).blk t).view.emb (ix3 (0 : Fin 1) a b)) = _
  refine congrArg (V m c main_arg0) (funext fun ax => Fin.ext ?_)
  obtain ⟨e0, e1, e2⟩ := idx_facts t
  match ax with
  | ⟨0, _⟩ => show win0_0.index t (0 : Fin 3) * 1 + 1 * 0 = t.val; rw [e0]; show t.val * 1 + 1 * 0 = t.val; omega
  | ⟨1, _⟩ => show win0_0.index t (1 : Fin 3) * 2048 + 1 * a.val = a.val; rw [e0]; show 0 * 2048 + 1 * a.val = a.val; omega
  | ⟨2, _⟩ => show win0_0.index t (2 : Fin 3) * 128 + 1 * b.val = b.val; rw [e0]; show 0 * 128 + 1 * b.val = b.val; omega

/-- The history slab of point `t` at `(0, a, b)` is the second argument at `(t, a, b)`. -/
theorem iblk1_apply (c : Dev nD) (t : Fin cfg0.N) (a : Fin 2048) (b : Fin 128) :
    iblk m c 1 t (ix3 (0 : Fin 1) a b) = V m c main_arg1 (ix3 (batchOf t) a b) := by
  show V m c main_arg1 (((cfg0.win 1).blk t).view.emb (ix3 (0 : Fin 1) a b)) = _
  refine congrArg (V m c main_arg1) (funext fun ax => Fin.ext ?_)
  obtain ⟨e0, e1, e2⟩ := idx_facts t
  match ax with
  | ⟨0, _⟩ => show win0_1.index t (0 : Fin 3) * 1 + 1 * 0 = t.val; rw [e1]; show t.val * 1 + 1 * 0 = t.val; omega
  | ⟨1, _⟩ => show win0_1.index t (1 : Fin 3) * 2048 + 1 * a.val = a.val; rw [e1]; show 0 * 2048 + 1 * a.val = a.val; omega
  | ⟨2, _⟩ => show win0_1.index t (2 : Fin 3) * 128 + 1 * b.val = b.val; rw [e1]; show 0 * 128 + 1 * b.val = b.val; omega

/-- Index `(0, a, b)` of the output slab of point `t` is index `(t, a, b)` of the output array. -/
theorem emb2_apply (t : Fin cfg0.N) (a : Fin 2048) (b : Fin 128) :
    ((cfg0.win 2).blk t).view.emb (ix3 (0 : Fin 1) a b) = ix3 (batchOf t) a b := by
  refine funext fun ax => Fin.ext ?_
  obtain ⟨e0, e1, e2⟩ := idx_facts t
  match ax with
  | ⟨0, _⟩ => show win0_2.index t (0 : Fin 3) * 1 + 1 * 0 = t.val; rw [e2]; show t.val * 1 + 1 * 0 = t.val; omega
  | ⟨1, _⟩ => show win0_2.index t (1 : Fin 3) * 2048 + 1 * a.val = a.val; rw [e2]; show 0 * 2048 + 1 * a.val = a.val; omega
  | ⟨2, _⟩ => show win0_2.index t (2 : Fin 3) * 128 + 1 * b.val = b.val; rw [e2]; show 0 * 128 + 1 * b.val = b.val; omega

/-! ## What a point writes back, and the array after the run -/

/-- What point `t` writes back is slab `t` of `G` of the argument arrays as the region finds them. -/
theorem flushed_eq (c : Dev nD) (t : Fin cfg0.N) :
    (dats m 0 c).flushed 2 t = ((cfg0.win 2).blk t).view.read (Elt Ideal) (G (V m c main_arg0) (V m c main_arg1)) := by
  show (cfg0.win 2).cut (grid0.coords t) ((dats m 0 c).after 2 t) = _
  rw [after0_2]
  refine funext fun (j : S1x2048x128.Idx) => ?_
  obtain ⟨u, r, cc, rfl⟩ : ∃ (u : Fin 1) (r : Fin 2048) (cc : Fin 128), j = ix3 u r cc := ⟨j 0, j 1, j 2, eq_ix3 j⟩
  obtain rfl : u = 0 := Subsingleton.elim _ _
  show out0_2 (iblk m c 0 t) (iblk m c 1 t) (ix3 (0 : Fin 1) r cc)
    = G (V m c main_arg0) (V m c main_arg1) (((cfg0.win 2).blk t).view.emb (ix3 (0 : Fin 1) r cc))
  rw [out_apply, emb2_apply, G_apply]
  unfold Gat rowScores colValues
  simp only [iblk0_apply, iblk1_apply]

/-- An index of the array is in point `t`'s block iff each coordinate is in the block's range on its axis. -/
theorem mem_blk2 (t : Fin cfg0.N) (i : S8x2048x128.Idx) :
    i ∈ ((cfg0.win 2).blk t).view.set ↔ ∀ a : Fin 3, win0_2.index t a * S1x2048x128.size a ≤ (i a).val ∧ (i a).val < win0_2.index t a * S1x2048x128.size a + S1x2048x128.size a := by
  show i ∈ ((View.whole main_v0).slice (win0_2.rect t)).set ↔ _
  rw [View.set_slice_whole, Rect.mem_set_unit]
  exact Iff.rfl

/-- Every index of the output array lies in the slab of its batch. -/
theorem cover (i : S8x2048x128.Idx) : ∃ t : Fin cfg0.N, (cfg0.win 2).flush t = true ∧ i ∈ ((cfg0.win 2).blk t).view.set := by
  have h0 : (i 0).val < 8 := (i 0).isLt
  have h1 : (i 1).val < 2048 := (i 1).isLt
  have h2 : (i 2).val < 128 := (i 2).isLt
  let t : Fin cfg0.N := ⟨(i 0).val, lt_of_lt_of_eq h0 N_0.symm⟩
  refine ⟨t, flush0_2 t, ?_⟩
  rw [mem_blk2]
  obtain ⟨e0, e1, e2⟩ := idx_facts t
  intro a
  match a with
  | ⟨0, _⟩ => show win0_2.index t (0 : Fin 3) * 1 ≤ (i 0).val ∧ (i 0).val < win0_2.index t (0 : Fin 3) * 1 + 1; rw [e2]; show (i 0).val * 1 ≤ (i 0).val ∧ (i 0).val < (i 0).val * 1 + 1; omega
  | ⟨1, _⟩ => show win0_2.index t (1 : Fin 3) * 2048 ≤ (i 1).val ∧ (i 1).val < win0_2.index t (1 : Fin 3) * 2048 + 2048; rw [e2]; show 0 * 2048 ≤ (i 1).val ∧ (i 1).val < 0 * 2048 + 2048; omega
  | ⟨2, _⟩ => show win0_2.index t (2 : Fin 3) * 128 ≤ (i 2).val ∧ (i 2).val < win0_2.index t (2 : Fin 3) * 128 + 128; rw [e2]; show 0 * 128 ≤ (i 2).val ∧ (i 2).val < 0 * 128 + 128; omega

/-- The output array after the run is `G` of the argument arrays. -/
theorem final (c : Dev nD) :
    (dats m 0 c).arrAt 2 cfg0.N = G (m ((c : Thread nD τ).loc main_arg0)) (m ((c : Thread nD τ).loc main_arg1)) :=
  (dats m 0 c).arrAt_eq_of_cover 2 (G (V m c main_arg0) (V m c main_arg1)) (fun t _ => flushed_eq m c t) cover

/-- The run, read: the output array at `G` of the arguments, the arguments unchanged. -/
theorem run : θ_run defs (onTc (τ := τ) (main (F := Ideal))) ⟨m, fun _ => 0, ρ⟩ fun r => ∀ c : Dev nD,
      r.2.mem ((c : Thread nD τ).loc main_v0) = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 2).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.KValue

end
-- ==== Proof.RefValue.lean ====
/-
  The reference, read at one output index. At `(b, q, c)` the host program computes, over the keys `k` of batch `b`:
  the scores `S k = ∑ h, tanh x0[b,q,h] * x1[b,k,h]`, their maximum (joined with `-∞`), the exponentials of the shifted
  scores, their sum from `0`, the quotients, and the sum of the quotients times `x1[b,k,c]` — the direct form of a
  softmax-weighted sum (`Cert.Attn.refRow`) of the row's scores and the column's values.
-/
import proofs.«413909_j83854941487646_3_alg».proof.Proof.Gen.ReferenceIdeal.Run
import proofs.«413909_j83854941487646_3_alg».proof.Proof.Gen.ReferenceIdeal.Read
import proofs.«413909_j83854941487646_3_alg».proof.Proof.Softmax
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx

/-! ### The two literals -/

/-- The word `0xFF800000` is `-∞`. -/
theorem ofBits_neg_inf : Ideal.ofBits .f32 0xFF800000#32 = (⊥ : EReal) := by
  simp [Ideal.ofBits, Ideal.ieee]

/-! ### The composed index functions at an index given by its coordinates -/

theorem lidx13_ix (b : Fin 8) (q : Fin 2048) (c : Fin 128) (k : Fin 2048) :
    lidx_main_v13 (ix3 b q c) k = ix3 b q k :=
  funext fun a => Fin.ext (by match a with | ⟨0, _⟩ => rfl | ⟨1, _⟩ => rfl | ⟨2, _⟩ => rfl)

theorem ridx13_ix (b : Fin 8) (q : Fin 2048) (c : Fin 128) (k : Fin 2048) :
    ridx_main_v13 (ix3 b q c) k = ix3 b k c :=
  funext fun a => Fin.ext (by match a with | ⟨0, _⟩ => rfl | ⟨1, _⟩ => rfl | ⟨2, _⟩ => rfl)

theorem idx11_ix (b : Fin 8) (q : Fin 2048) (k : Fin 2048) :
    idx_main_v11 (ix3 b q k) = ix3 b q (0 : Fin 1) :=
  funext fun a => Fin.ext (by match a with | ⟨0, _⟩ => rfl | ⟨1, _⟩ => rfl | ⟨2, _⟩ => rfl)

theorem idx10_ix (b : Fin 8) (q : Fin 2048) :
    idx_main_v10 (ix3 b q (0 : Fin 1)) = ix2 b q :=
  funext fun a => Fin.ext (by match a with | ⟨0, _⟩ => rfl | ⟨1, _⟩ => rfl)

theorem idx9_ix (b : Fin 8) (q : Fin 2048) (k : Fin 2048) :
    idx_main_v9 (ix2 b q) k = ix3 b q k :=
  funext fun a => Fin.ext (by match a with | ⟨0, _⟩ => rfl | ⟨1, _⟩ => rfl | ⟨2, _⟩ => rfl)

theorem idx6_ix (b : Fin 8) (q : Fin 2048) (k : Fin 2048) :
    idx_main_v6 (ix3 b q k) = ix3 b q (0 : Fin 1) :=
  funext fun a => Fin.ext (by match a with | ⟨0, _⟩ => rfl | ⟨1, _⟩ => rfl | ⟨2, _⟩ => rfl)

theorem idx5_ix (b : Fin 8) (q : Fin 2048) :
    idx_main_v5 (ix3 b q (0 : Fin 1)) = ix2 b q :=
  funext fun a => Fin.ext (by match a with | ⟨0, _⟩ => rfl | ⟨1, _⟩ => rfl)

theorem lidx1_ix (b : Fin 8) (q : Fin 2048) (k : Fin 2048) (h : Fin 128) :
    lidx_main_v1 (ix3 b q k) h = ix3 b q h :=
  funext fun a => Fin.ext (by match a with | ⟨0, _⟩ => rfl | ⟨1, _⟩ => rfl | ⟨2, _⟩ => rfl)

theorem ridx1_ix (b : Fin 8) (q : Fin 2048) (k : Fin 2048) (h : Fin 128) :
    ridx_main_v1 (ix3 b q k) h = ix3 b k h :=
  funext fun a => Fin.ext (by match a with | ⟨0, _⟩ => rfl | ⟨1, _⟩ => rfl | ⟨2, _⟩ => rfl)

/-! ### A one-axis maximum of a rank-3 array over its last axis -/

/-- The host's one-operand `stablehlo.reduce` by `maximum` of an `[a, b, c]` array over its last axis, at
    `(i, j)`, read at the extended reals: the fold of `max` from the initial value over the entries `(i, j, k)`. -/
theorem hostReduce_max_last {a b c : ℕ} {u : Shape} {φ : FTy} (x : (⟨3, ![a, b, c]⟩ : Shape).Idx → EReal) (init : u.Idx → EReal)
    (h' : (⟨3, ![a, b, c]⟩ : Shape).ReducesTo [2] ⟨2, ![a, b]⟩) (h : (⟨3, ![a, b, c]⟩ : Shape).Reduces [2] ⟨2, ![a, b]⟩)
    (hu : 0 < u.numel) (i : Fin a) (j : Fin b) :
    Host.reduce (FloatOps.maximumf (F := Ideal) (φ := φ)) x init h' hu (ix2 i j)
      = (Finset.univ : Finset (Fin c)).fold max (init (Shape.Idx.first hu)) (fun k => x (ix3 i j k)) := by
  refine (Host.reduce_eq_fold_single (FloatOps.maximumf (F := Ideal) (φ := φ)) x init h' h hu (ix2 i j)).trans ?_
  show (Finset.univ : Finset (Fin c)).fold max (init (Shape.Idx.first hu)) (fun k => x (h.lift (ix2 i j) k)) = _
  refine congrArg (fun f => (Finset.univ : Finset (Fin c)).fold max (init (Shape.Idx.first hu)) f)
    (funext fun k => congrArg x (funext fun ax => Fin.ext ?_))
  match ax with
  | ⟨0, _⟩ => rfl
  | ⟨1, _⟩ => rfl
  | ⟨2, _⟩ => rfl

/-! ### The stages at `(b, q, k)` -/

section Stages

variable (x0 x1 : (⟨S8x2048x128, .f32⟩ : BufTy).Contents (Elt Ideal))

/-- The score of query `(b, q)` against key `k`. -/
theorem score_apply (b : Fin 8) (q : Fin 2048) (k : Fin 2048) :
    val_main_v1 (F := Ideal) x0 x1 (ix3 b q k) = ∑ h : Fin 128, Ideal.tanh (x0 (ix3 b q h)) * x1 (ix3 b k h) := by
  rw [val_main_v1_apply]
  refine Finset.sum_congr rfl fun h _ => ?_
  rw [lidx1_ix, ridx1_ix, val_main_v0_apply, Ideal.hostUnary_tanh_def]

/-- The row's maximum, folded from `-∞`. -/
theorem rowmax_apply (b : Fin 8) (q : Fin 2048) :
    val_main_v2 (F := Ideal) x0 x1 (ix2 b q)
      = (Finset.univ : Finset (Fin 2048)).fold max ⊥ (fun k => ∑ h : Fin 128, Ideal.tanh (x0 (ix3 b q h)) * x1 (ix3 b k h)) := by
  unfold val_main_v2
  refine (hostReduce_max_last (φ := .f32) (val_main_v1 (F := Ideal) x0 x1) (val_main_cst (F := Ideal))
    reducesTo_S8x2048x2048_S8x2048_d2 (by decide) h_S_ b q).trans ?_
  rw [val_main_cst_apply, Ideal.ofBits_def, ofBits_neg_inf]
  exact congrArg (fun f => (Finset.univ : Finset (Fin 2048)).fold max ⊥ f) (funext fun k => score_apply x0 x1 b q k)

/-- The row's maximum joined with `-∞` once more. -/
theorem shift_apply (b : Fin 8) (q : Fin 2048) :
    val_main_v4 (F := Ideal) x0 x1 (ix2 b q)
      = max ⊥ ((Finset.univ : Finset (Fin 2048)).fold max ⊥ (fun k => ∑ h : Fin 128, Ideal.tanh (x0 (ix3 b q h)) * x1 (ix3 b k h))) := by
  rw [val_main_v4_apply, val_main_v3_apply, val_main_cst_0_apply, Ideal.maximumf_def, Ideal.ofBits_def, ofBits_neg_inf,
    rowmax_apply]

/-- The exponential of the shifted score. -/
theorem exp_apply (b : Fin 8) (q : Fin 2048) (k : Fin 2048) :
    val_main_v8 (F := Ideal) x0 x1 (ix3 b q k)
      = Ideal.exp ((∑ h : Fin 128, Ideal.tanh (x0 (ix3 b q h)) * x1 (ix3 b k h))
          - max ⊥ ((Finset.univ : Finset (Fin 2048)).fold max ⊥ (fun k => ∑ h : Fin 128, Ideal.tanh (x0 (ix3 b q h)) * x1 (ix3 b k h)))) := by
  rw [val_main_v8_apply, val_main_v7_apply, val_main_v6_apply, idx6_ix, val_main_v5_apply, idx5_ix, shift_apply, score_apply,
    Ideal.hostUnary_exp_def, Ideal.subf_def]

/-- The row's denominator: the sum of the exponentials from `0`. -/
theorem den_apply (b : Fin 8) (q : Fin 2048) :
    val_main_v9 (F := Ideal) x0 x1 (ix2 b q)
      = 0 + ∑ k' : Fin 2048, Ideal.exp ((∑ h : Fin 128, Ideal.tanh (x0 (ix3 b q h)) * x1 (ix3 b k' h))
          - max ⊥ ((Finset.univ : Finset (Fin 2048)).fold max ⊥ (fun k => ∑ h : Fin 128, Ideal.tanh (x0 (ix3 b q h)) * x1 (ix3 b k h)))) := by
  rw [val_main_v9_apply, val_main_cst_1_apply, Ideal.ofBits_def, Ideal.ofBits_zero_f32]
  refine congrArg (0 + ·) (Finset.sum_congr rfl fun k' _ => ?_)
  rw [idx9_ix, exp_apply]

/-- The quotient: the softmax weight of key `k` in row `(b, q)`. -/
theorem weight_apply (b : Fin 8) (q : Fin 2048) (k : Fin 2048) :
    val_main_v12 (F := Ideal) x0 x1 (ix3 b q k)
      = Ideal.div (Ideal.exp ((∑ h : Fin 128, Ideal.tanh (x0 (ix3 b q h)) * x1 (ix3 b k h))
          - max ⊥ ((Finset.univ : Finset (Fin 2048)).fold max ⊥ (fun k => ∑ h : Fin 128, Ideal.tanh (x0 (ix3 b q h)) * x1 (ix3 b k h)))))
        (0 + ∑ k' : Fin 2048, Ideal.exp ((∑ h : Fin 128, Ideal.tanh (x0 (ix3 b q h)) * x1 (ix3 b k' h))
          - max ⊥ ((Finset.univ : Finset (Fin 2048)).fold max ⊥ (fun k => ∑ h : Fin 128, Ideal.tanh (x0 (ix3 b q h)) * x1 (ix3 b k h))))) := by
  rw [val_main_v12_apply, val_main_v11_apply, idx11_ix, val_main_v10_apply, idx10_ix, den_apply, exp_apply, Ideal.hostDivf_def]

end Stages

/-- The reference's result at `(b, q, c)` is the direct softmax-weighted sum of row `(b, q)`'s scores against
    column `c` of batch `b`'s history. -/
theorem ref_apply (x0 x1 : (⟨S8x2048x128, .f32⟩ : BufTy).Contents (Elt Ideal)) (b : Fin 8) (q : Fin 2048) (c : Fin 128) :
    val_main_v13 (F := Ideal) x0 x1 (ix3 b q c)
      = Cert.Attn.refRow (fun k => ∑ h : Fin 128, Ideal.tanh (x0 (ix3 b q h)) * x1 (ix3 b k h)) (fun k => x1 (ix3 b k c)) := by
  unfold Cert.Attn.refRow
  rw [val_main_v13_apply]
  refine Finset.sum_congr rfl fun k _ => ?_
  rw [lidx13_ix, ridx13_ix, weight_apply]

end Cert.ReferenceIdeal.RefValue

end
-- ==== Proof.Finite.lean ====
/-
  The precondition read: "every entry of both inputs is smaller in absolute value than +∞" says that every entry is a
  real number.
-/
import proofs.«413909_j83854941487646_3_alg».proof.Pre_finite_inputs
import proofs.«413909_j83854941487646_3_alg».proof.Proof.Gen.Pre_finite_inputs
import Idealize.ShloMosaic.Lib.ReduceAll
import Idealize.ShloMosaic.Lib.ValueIdx
import Idealize.ShloMosaic.PureOps.Ideal.Laws

noncomputable section

namespace Cert.Proof.Finite

open Idealize.ShloMosaic

/-- The rank-0 shape has exactly one index. -/
instance : Subsingleton Cert.Pre_finite_inputs.S_.Idx := ⟨fun _ _ => funext fun d => d.elim0⟩

/-- The f32 pattern `0x7F800000` denotes `+∞`. -/
theorem ofBits_inf : Ideal.ofBits .f32 0x7F800000#32 = (⊤ : EReal) := by
  simp [Ideal.ofBits, Ideal.ieee]

/-- An extended real whose absolute value `max a (-a)` lies strictly below `+∞` is a real number: at `⊥` and at `⊤`
    the absolute value is `⊤`. -/
theorem real_of_abs_lt_top (a : EReal) (h : max a (-a) < ⊤) : ∃ r : ℝ, a = (r : EReal) := by
  induction a using EReal.rec with
  | bot => simp at h
  | coe r => exact ⟨r, rfl⟩
  | top => simp at h

/-- One entry of the compared array: `|a| < +∞` holding as the word 1 says `a` is a real number. -/
theorem real_of_cmp (a : Ideal .f32)
    (h : FloatOps.cmpf (F := Ideal) .olt (FloatOps.hostAbsf a) (FloatOps.ofBits .f32 0x7F800000#32) = 1#1) :
    ∃ r : ℝ, a = (r : EReal) := by
  refine real_of_abs_lt_top a ?_
  -- the compare is the word of the decision `|a| < +∞`; were the decision false the word would be 0
  have h' : BitVec.ofBool (decide (max a (-a) < Ideal.ofBits .f32 0x7F800000#32)) = 1#1 := h
  rw [ofBits_inf] at h'
  by_contra hn
  rw [decide_eq_false hn] at h'
  exact absurd h' (by decide)

/-- Under the precondition every entry of both input arrays is a real number. -/
theorem finite_of_pre (x0 x1 : FVec Ideal Cert.Pre_finite_inputs.S8x2048x128 .f32)
    (h : Cert.Pre_finite_inputs.fn (F := Ideal) x0 x1 = fun _ => 1#1) :
    (∀ i, ∃ r : ℝ, x0 i = (r : EReal)) ∧ (∀ i, ∃ r : ℝ, x1 i = (r : EReal)) := by
  have h0 := congrFun h ValueIdx.ix0
  dsimp only [Cert.Pre_finite_inputs.fn] at h0
  -- the final `and` of the two `jnp.all` results
  obtain ⟨ha, hb⟩ := IntOp.andi_eq_one.1 h0
  refine ⟨fun i => ?_, fun i => ?_⟩
  · -- every entry of the first compared array is 1
    exact real_of_cmp (x0 i) (Host.reduce_andi_all _ _ _ _ _ ha i)
  · exact real_of_cmp (x1 i) (Host.reduce_andi_all _ _ _ _ _ hb i)

end Cert.Proof.Finite

end
-- ==== Proof.lean ====
/-
  A batched attention kernel against its jnp reference, over the extended reals.

  For each of 8 batches, with queries `x` and history `h` (both 2048 × 128), the reference computes
  `softmax(tanh(x) hᵀ, over the keys) · h`: at `(b, q, c)` the sum over the 2048 keys `k` of
  `exp (S k - M) / (∑ k', exp (S k' - M)) * h[b, k, c]`, where `S k = ∑ f, tanh x[b, q, f] * h[b, k, f]` is the query's score
  against key `k` and `M` the maximum score of the row. The kernel handles one batch per grid point and goes through the
  keys in four blocks of 512, carrying for every query row a running maximum, a running denominator and a running
  numerator, each block rescaling the old sums by `exp (old maximum - new maximum)`; it stores numerator / denominator.

  Both are `(∑ k, exp (S k) * h[b, k, c]) / (∑ k, exp (S k))` once every input entry is a real number — the precondition —
  because shifting every exponent by one real number multiplies numerator and denominator alike; the first block
  starts from the maximum `-∞`, where the rescaling factor is `exp (-∞) = 0` against zero sums. The roundings to bf16
  on the way into the two matrix products are the identity at the extended reals, a matrix product into a zero
  accumulator is the host's product, and a lane reduction is the host's.

  The pieces: the kernel body's run and the frames of both kernel programs at any float instance; the body's
  arithmetic read at an index as the online recurrence; the output blocks assembled into one whole-array function of
  the arguments; the reference read at an index as the direct form; finiteness from the precondition; and the identity
  of the online and the direct form on finite scores. The reference's frame is its run with the result dropped. The
  idealization rewrote nothing, so `preserves` is trivial.
-/
import proofs.«413909_j83854941487646_3_alg».proof.Defs
import proofs.«413909_j83854941487646_3_alg».proof.Proof.Gen.Kernel
import proofs.«413909_j83854941487646_3_alg».proof.Proof.Gen.KernelIdeal
import proofs.«413909_j83854941487646_3_alg».proof.Proof.Gen.ReferenceIdeal
import proofs.«413909_j83854941487646_3_alg».proof.Proof.Gen.Pre_finite_inputs
import proofs.«413909_j83854941487646_3_alg».proof.Proof.Gen.ReferenceIdeal.Run
import proofs.«413909_j83854941487646_3_alg».proof.Proof.Gen.ReferenceIdeal.Read
import proofs.«413909_j83854941487646_3_alg».proof.Proof.BodyBits
import proofs.«413909_j83854941487646_3_alg».proof.Proof.BodyIdeal
import proofs.«413909_j83854941487646_3_alg».proof.Proof.KernelValue
import proofs.«413909_j83854941487646_3_alg».proof.Proof.RefValue
import proofs.«413909_j83854941487646_3_alg».proof.Proof.Finite
import proofs.«413909_j83854941487646_3_alg».proof.Proof.Softmax
import Idealize.ShloMosaic.Adequacy
import Idealize.ShloMosaic.Init

noncomputable section

namespace Cert.Proof

open Idealize.ShloMosaic Idealize.ShloMosaic.TcCoe Idealize.SL.Sem Idealize.ShloMosaic.ValueIdx

/-- The kernel as printed runs to the end and leaves its arguments unchanged. -/
theorem frame_k : Cert.frame_Kernel := fun m ρ _ => Cert.Kernel.Body.frame m ρ

/-- So does its idealization. -/
theorem frame_ki : Cert.frame_KernelIdeal := fun m ρ _ => Cert.KernelIdeal.Body.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- On arrays of real numbers the reference's result is the kernel's whole-array function: index by index the direct
    form of the softmax-weighted sum is the online form. -/
theorem ref_eq_kernel (x0 x1 : Cert.KernelIdeal.S8x2048x128.Idx → EReal)
    (h0 : ∀ i, ∃ r : ℝ, x0 i = (r : EReal)) (h1 : ∀ i, ∃ r : ℝ, x1 i = (r : EReal)) :
    Cert.ReferenceIdeal.Read.val_main_v13 (F := Ideal) x0 x1 = Cert.KernelIdeal.KValue.G x0 x1 := by
  choose a0 ha0 using h0
  choose a1 ha1 using h1
  funext i
  obtain ⟨b, q, c, rfl⟩ : ∃ (b : Fin 8) (q : Fin 2048) (c : Fin 128), i = ix3 b q c := ⟨i 0, i 1, i 2, eq_ix3 i⟩
  rw [Cert.ReferenceIdeal.RefValue.ref_apply, Cert.KernelIdeal.KValue.G_apply]
  unfold Cert.KernelIdeal.KValue.Gat
  have hS : (fun k : Fin 2048 => ∑ h : Fin 128, Ideal.tanh (x0 (ix3 b q h)) * x1 (ix3 b k h))
      = fun k : Fin 2048 => ((∑ h : Fin 128, Real.tanh (a0 (ix3 b q h)) * a1 (ix3 b k h) : ℝ) : EReal) :=
    funext fun k => by
      simp only [ha0, ha1]
      exact Cert.Attn.score_coe (fun h => a0 (ix3 b q h)) (fun h => a1 (ix3 b k h))
  have hV : (fun k : Fin 2048 => x1 (ix3 b k c)) = fun k : Fin 2048 => ((a1 (ix3 b k c) : ℝ) : EReal) :=
    funext fun k => ha1 _
  rw [hS, hV]
  exact (Cert.Attn.kerRow_eq_refRow _ _).symm

/-- From memories agreeing on the arguments, both idealized programs run and end with equal results: the kernel's
    output array is the whole-array function of its arguments, the reference's result is the same function of the
    same arguments, finite by the precondition. -/
theorem algebraic : Cert.algebraic_KernelIdeal_ReferenceIdeal := by
  intro m ρ m' ρ' hpre hagree
  refine ⟨fun c => Cert.KernelIdeal.KValue.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v13_eq (F := Ideal) _ _).trans ?_
  rw [(hagree c).1, (hagree c).2]
  obtain ⟨hf0, hf1⟩ := Cert.Proof.Finite.finite_of_pre _ _ (hpre c)
  exact ref_eq_kernel _ _ hf0 hf1

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
